-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1968 : Shape := ⟨1, ![1968]⟩
abbrev S851968 : Shape := ⟨1, ![851968]⟩
abbrev S851968x1 : Shape := ⟨2, ![851968, 1]⟩
abbrev S5000x128 : Shape := ⟨2, ![5000, 128]⟩
abbrev S851968x128 : Shape := ⟨2, ![851968, 128]⟩
abbrev S4096x128 : Shape := ⟨2, ![4096, 128]⟩
abbrev S4096x1 : Shape := ⟨2, ![4096, 1]⟩
abbrev S1x128 : Shape := ⟨2, ![1, 128]⟩
abbrev S50000x64 : Shape := ⟨2, ![50000, 64]⟩
abbrev S5000x64 : Shape := ⟨2, ![5000, 64]⟩
abbrev S851968x64 : Shape := ⟨2, ![851968, 64]⟩
abbrev S4096x64 : Shape := ⟨2, ![4096, 64]⟩
abbrev S1x64 : Shape := ⟨2, ![1, 64]⟩

abbrev nBuf : Space → Nat
  | .hbm => 88
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S1968, .i32⟩
  | .hbm, ⟨48, _⟩ => ⟨S_, .f32⟩
  | .hbm, ⟨49, _⟩ => ⟨S1968, .f32⟩
  | .hbm, ⟨50, _⟩ => ⟨S851968, .i32⟩
  | .hbm, ⟨51, _⟩ => ⟨S851968, .i32⟩
  | .hbm, ⟨52, _⟩ => ⟨S851968, .f32⟩
  | .hbm, ⟨53, _⟩ => ⟨S851968x1, .f32⟩
  | .hbm, ⟨54, _⟩ => ⟨S50000x128, .f32⟩
  | .hbm, ⟨55, _⟩ => ⟨S_, .i32⟩
  | .hbm, ⟨56, _⟩ => ⟨S851968, .i32⟩
  | .hbm, ⟨57, _⟩ => ⟨S851968, .i1⟩
  | .hbm, ⟨58, _⟩ => ⟨S_, .i32⟩
  | .hbm, ⟨59, _⟩ => ⟨S851968, .i32⟩
  | .hbm, ⟨60, _⟩ => ⟨S851968, .i32⟩
  | .hbm, ⟨61, _⟩ => ⟨S851968, .i32⟩
  | .hbm, ⟨62, _⟩ => ⟨S851968x1, .i32⟩
  | .hbm, ⟨63, _⟩ => ⟨S851968x128, .f32⟩
  | .hbm, ⟨64, _⟩ => ⟨S851968x128, .f32⟩
  | .hbm, ⟨65, _⟩ => ⟨S_, .f32⟩
  | .hbm, ⟨66, _⟩ => ⟨S50000x128, .f32⟩
  | .hbm, ⟨67, _⟩ => ⟨S851968x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x64, .f32⟩
  | .hbm, ⟨72, _⟩ => ⟨S_, .i32⟩
  | .hbm, ⟨73, _⟩ => ⟨S851968, .i32⟩
  | .hbm, ⟨74, _⟩ => ⟨S851968, .i1⟩
  | .hbm, ⟨75, _⟩ => ⟨S_, .i32⟩
  | .hbm, ⟨76, _⟩ => ⟨S851968, .i32⟩
  | .hbm, ⟨77, _⟩ => ⟨S851968, .i32⟩
  | .hbm, ⟨78, _⟩ => ⟨S851968, .i32⟩
  | .hbm, ⟨79, _⟩ => ⟨S851968x1, .i32⟩
  | .hbm, ⟨80, _⟩ => ⟨S851968x64, .f32⟩
  | .hbm, ⟨81, _⟩ => ⟨S851968x64, .f32⟩
  | .hbm, ⟨82, _⟩ => ⟨S_, .f32⟩
  | .hbm, ⟨83, _⟩ => ⟨S50000x64, .f32⟩
  | .hbm, ⟨84, _⟩ => ⟨S851968x1, .i32⟩
  | .hbm, ⟨85, _⟩ => ⟨S50000x64, .f32⟩
  | .hbm, ⟨86, _⟩ => ⟨S1x64, .f32⟩
  | .hbm, ⟨87, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S4096x128, .f32⟩
  | .local _ .vmem, ⟨6, _⟩ => ⟨S4096x128, .f32⟩
  | .local _ .vmem, ⟨7, _⟩ => ⟨S4096x1, .f32⟩
  | .local _ .vmem, ⟨8, _⟩ => ⟨S4096x1, .f32⟩
  | .local _ .vmem, ⟨9, _⟩ => ⟨S4096x128, .f32⟩
  | .local _ .vmem, ⟨10, _⟩ => ⟨S4096x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S4096x64, .f32⟩
  | .local _ .vmem, ⟨22, _⟩ => ⟨S4096x64, .f32⟩
  | .local _ .vmem, ⟨23, _⟩ => ⟨S4096x1, .f32⟩
  | .local _ .vmem, ⟨24, _⟩ => ⟨S4096x1, .f32⟩
  | .local _ .vmem, ⟨25, _⟩ => ⟨S4096x64, .f32⟩
  | .local _ .vmem, ⟨26, _⟩ => ⟨S4096x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![208], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S1968 : S_.BroadcastsInDim S1968 (![] : Fin 0 → Fin S1968.rank)
  concatenates_S850000_S1968_S851968_d0 : Shape.Concatenates [S850000, S1968] S851968 0
  shapeCasts_S851968_S851968x1 : S851968.ShapeCasts S851968x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S851968 : S_.BroadcastsInDim S851968 (![] : Fin 0 → Fin S851968.rank)
  bcast_S851968_S851968x1_0 : S851968.BroadcastsInDim S851968x1 (![0] : Fin 1 → Fin S851968x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S4096x1_S4096x64 : S4096x1.Broadcasts S4096x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S851968x1_S851968x128_1_0_n_n_0_1_1128_wf : GatherDims.WF S50000x128 S851968x1 S851968x128 [1] [0] [] [0] [] 1 ![1, 128]
  scatter_S50000x128_S851968x1_S851968x128_1_0_0_1_wf : ScatterDims.WF S50000x128 S851968x1 S851968x128 [1] [0] [0] 1
  dot_S5000x128_S128x64_S5000x64_1_0_0_1_n_n_wf : DotDims.WF S5000x128 S128x64 S5000x64 [1] [0] [0] [1] [] []
  gather_S50000x64_S851968x1_S851968x64_1_0_n_n_0_1_164_wf : GatherDims.WF S50000x64 S851968x1 S851968x64 [1] [0] [] [0] [] 1 ![1, 64]
  scatter_S50000x64_S851968x1_S851968x64_1_0_0_1_wf : ScatterDims.WF S50000x64 S851968x1 S851968x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S851968x128.size a
  hwx1_0 : ∀ i : grid1.Coords, EltTy.bits .f32 = 32 ∨ (Rect.block (s := S851968x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S851968x1.size a
  hwx1_1 : ∀ i : grid1.Coords, EltTy.bits .f32 = 32 ∨ (Rect.block (s := S851968x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S851968x128.size a
  hwx1_2 : ∀ i : grid1.Coords, EltTy.bits .f32 = 32 ∨ (Rect.block (s := S851968x128) S4096x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S851968x64.size a
  hwx4_0 : ∀ i : grid4.Coords, EltTy.bits .f32 = 32 ∨ (Rect.block (s := S851968x64) S4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S851968x1.size a
  hwx4_1 : ∀ i : grid4.Coords, EltTy.bits .f32 = 32 ∨ (Rect.block (s := S851968x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S851968x64.size a
  hwx4_2 : ∀ i : grid4.Coords, EltTy.bits .f32 = 32 ∨ (Rect.block (s := S851968x64) S4096x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S851968x1_S851968x128_1_0_n_n_0_1_1128 : GatherDims S50000x128 S851968x1 S851968x128 where
  offsetDims := [1]
  collapsedSliceDims := [0]
  operandBatchingDims := []
  startIndicesBatchingDims := []
  startIndexMap := [0]
  indexVectorDim := 1
  sliceSizes := ![1, 128]
  wf := gather_S50000x128_S851968x1_S851968x128_1_0_n_n_0_1_1128_wf
def scatter_S50000x128_S851968x1_S851968x128_1_0_0_1 : ScatterDims S50000x128 S851968x1 S851968x128 where
  updateWindowDims := [1]
  insertedWindowDims := [0]
  scatterDimsToOperandDims := [0]
  indexVectorDim := 1
  wf := scatter_S50000x128_S851968x1_S851968x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S851968x1_S851968x64_1_0_n_n_0_1_164 : GatherDims S50000x64 S851968x1 S851968x64 where
  offsetDims := [1]
  collapsedSliceDims := [0]
  operandBatchingDims := []
  startIndicesBatchingDims := []
  startIndexMap := [0]
  indexVectorDim := 1
  sliceSizes := ![1, 64]
  wf := gather_S50000x64_S851968x1_S851968x64_1_0_n_n_0_1_164_wf
def scatter_S50000x64_S851968x1_S851968x64_1_0_0_1 : ScatterDims S50000x64 S851968x1 S851968x64 where
  updateWindowDims := [1]
  insertedWindowDims := [0]
  scatterDimsToOperandDims := [0]
  indexVectorDim := 1
  wf := scatter_S50000x64_S851968x1_S851968x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S4096x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S850000, .f32⟩
  | .hbm, ⟨71, _⟩ => ⟨S_, .f32⟩
  | .hbm, ⟨72, _⟩ => ⟨S50000, .f32⟩
  | .hbm, ⟨73, _⟩ => ⟨S850000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .i1⟩
  | .hbm, ⟨78, _⟩ => ⟨S50000, .f32⟩
  | .hbm, ⟨79, _⟩ => ⟨S_, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000, .f32⟩
  | .hbm, ⟨101, _⟩ => ⟨S850000, .f32⟩
  | .hbm, ⟨102, _⟩ => ⟨S50000x64, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  THE TWO-LAYER GRAPH CONVOLUTION, ELEMENT BY ELEMENT, ON THE EXTENDED REALS.

  A table `h : [50000, W]` of node features, a column `g : [E, 1]` of source-row numbers and a column `d : [E, 1]` of
  target-row numbers (integer words, read signed), and a weight `s e` per edge `e`. One propagation step sends along
  every edge the source row (its number clamped into the table, as a gather clamps) times the edge's weight, and adds
  at every node the rows sent to it (a row number that names no node is dropped, as a scatter drops it):

      aggAt h g d s n j  =  0 + ∑ over the edges e with d e = n of  h[clamp (g e), j] * s e.

  A layer is `x ↦ aggAt (x · w) … + b`; the network is two layers with `max · 0` between them (`hidden`, `outAt`).

  PADDING. Appending `P` edges of weight zero to the `E` edges changes nothing: each appended term is `h[…] * 0 = 0`
  (true of every extended real, infinite ones included), and the first `E` terms are the old ones (`aggAt_pad`,
  `outAt_pad`). This is the whole difference between a computation over edge lists padded to a multiple of a block
  size and the computation over the lists themselves.
-/
import Idealize.ShloMosaic.PureOps.Ideal
import Idealize.ShloMosaic.Lib.ValueIdx
import Mathlib.Algebra.BigOperators.Fin

open scoped BigOperators

noncomputable section

namespace Cert.Bridge

open Idealize.ShloMosaic Idealize.ShloMosaic.ValueIdx

/-- A table of extended reals with `N` rows and `W` columns. -/
abbrev Tab (N W : Nat) : Type := (⟨2, ![N, W]⟩ : Shape).Idx → EReal
/-- A column of `E` integer words. -/
abbrev ICol (E : Nat) : Type := (⟨2, ![E, 1]⟩ : Shape).Idx → BitVec 32
/-- A row vector of `W` extended reals. -/
abbrev Row (W : Nat) : Type := (⟨1, ![W]⟩ : Shape).Idx → EReal

/-- A table from a function of the row and the column. -/
def tab2 {N W : Nat} (f : Fin N → Fin W → EReal) : Tab N W :=
  fun i => f ⟨(i 0).val, idx2_lt0 i⟩ ⟨(i 1).val, idx2_lt1 i⟩

/-- Its element at row `n`, column `j`. -/
theorem tab2_apply {N W : Nat} (f : Fin N → Fin W → EReal) (n : Fin N) (j : Fin W) : tab2 f (ix2 n j) = f n j := rfl

/-- A vector's element `e`. -/
def at1 {E : Nat} (v : Row E) (e : Fin E) : EReal := v (ix1 e)

/-- A table's element at row `n`, column `j`. -/
def at2 {N W : Nat} (x : Tab N W) (n : Fin N) (j : Fin W) : EReal := x (ix2 n j)

/-- Row `e` of a table scaled by that row's entry of a one-column table. -/
def scaleAt {E W : Nat} (x : Tab E W) (s : Tab E 1) (e : Fin E) (j : Fin W) : EReal := x (ix2 e j) * s (ix2 e 0)

/-- A table plus a one-row table added to every row. -/
def biasAt {N W : Nat} (x : Tab N W) (b : Tab 1 W) (n : Fin N) (j : Fin W) : EReal := x (ix2 n j) + b (ix2 0 j)

/-- The same, then the positive part. -/
def biasReluAt {N W : Nat} (x : Tab N W) (b : Tab 1 W) (n : Fin N) (j : Fin W) : EReal := max (x (ix2 n j) + b (ix2 0 j)) 0

/-- A row number read signed and clamped into the 50000 rows of a node table. -/
def clampRow (v : BitVec 32) : Fin 50000 := ⟨min v.toInt.toNat (50000 - 1), by omega⟩

/-- The matrix product `x · w` at row `n`, column `j`. -/
def mmAt {K M : Nat} (x : Tab 50000 K) (w : Tab K M) (n : Fin 50000) (j : Fin M) : EReal :=
  ∑ k : Fin K, x (ix2 n k) * w (ix2 k j)

/-- What node `n` receives in column `j`: zero plus, over the edges whose target number is `n`, the source row
    (number clamped) at column `j` times the edge's weight. -/
def aggAt {E W : Nat} (h : Tab 50000 W) (g d : ICol E) (s : Fin E → EReal) (n : Fin 50000) (j : Fin W) : EReal :=
  0 + ∑ e ∈ Finset.univ.filter (fun e : Fin E => (d (ix2 e 0)).toInt = (n.val : Int)),
        h (ix2 (clampRow (g (ix2 e 0))) j) * s e

/-- The first layer's output: propagate `x · w1`, add the bias row, take the positive part. -/
def hidden {E : Nat} (x : Tab 50000 128) (w1 : Tab 128 128) (b1 : Row 128) (g d : ICol E) (s : Fin E → EReal) :
    Tab 50000 128 :=
  tab2 fun n j => max (aggAt (tab2 (mmAt x w1)) g d s n j + b1 (ix1 j)) 0

/-- The network's output at node `n`, column `j`: the second layer (no positive part) over the first layer's output. Each
    layer has its own copies of the three edge columns. -/
def outAt {E : Nat} (x : Tab 50000 128) (w1 : Tab 128 128) (b1 : Row 128) (w2 : Tab 128 64) (b2 : Row 64)
    (g1 d1 : ICol E) (s1 : Fin E → EReal) (g2 d2 : ICol E) (s2 : Fin E → EReal) (n : Fin 50000) (j : Fin 64) : EReal :=
  aggAt (tab2 (mmAt (hidden x w1 b1 g1 d1 s1) w2)) g2 d2 s2 n j + b2 (ix1 j)

/-- A filtered sum over `E + P` indices whose last `P` terms vanish is the filtered sum over the first `E`. -/
theorem sum_filter_pad {E P : Nat} (p' : Fin (E + P) → Prop) [DecidablePred p'] (p : Fin E → Prop) [DecidablePred p]
    (f' : Fin (E + P) → EReal) (f : Fin E → EReal)
    (hp : ∀ e : Fin E, p' (Fin.castAdd P e) ↔ p e) (hf : ∀ e : Fin E, f' (Fin.castAdd P e) = f e)
    (hz : ∀ q : Fin P, f' (Fin.natAdd E q) = 0) :
    ∑ e ∈ Finset.univ.filter p', f' e = ∑ e ∈ Finset.univ.filter p, f e := by
  rw [Finset.sum_filter, Finset.sum_filter, Fin.sum_univ_add]
  have h2 : ∑ q : Fin P, (if p' (Fin.natAdd E q) then f' (Fin.natAdd E q) else 0) = 0 :=
    Finset.sum_eq_zero fun q _ => by rw [hz q]; split <;> rfl
  rw [h2, add_zero]
  refine Finset.sum_congr rfl fun e _ => ?_
  rw [hf e]
  exact if_congr (hp e) rfl rfl

/-- PADDING, one propagation step: over `E'` = `E + P` edges whose first `E` have the columns `g`, `d`, `s` and whose last `P`
    have weight zero, every node receives what it receives over the `E` edges. -/
theorem aggAt_pad {E P E' W : Nat} (hE : E' = E + P) (h : Tab 50000 W) (g' d' : ICol E') (s' : Fin E' → EReal)
    (g d : ICol E) (s : Fin E → EReal)
    (hg : ∀ e : Fin E, g' (ix2 ⟨e.val, by omega⟩ 0) = g (ix2 e 0))
    (hd : ∀ e : Fin E, d' (ix2 ⟨e.val, by omega⟩ 0) = d (ix2 e 0))
    (hs : ∀ e : Fin E, s' ⟨e.val, by omega⟩ = s e)
    (hz : ∀ e' : Fin E', E ≤ e'.val → s' e' = 0) (n : Fin 50000) (j : Fin W) :
    aggAt h g' d' s' n j = aggAt h g d s n j := by
  subst hE
  unfold aggAt
  congr 1
  refine sum_filter_pad _ _ _ _ (fun e => ?_) (fun e => ?_) (fun q => ?_)
  · show (d' (ix2 (Fin.castAdd P e) 0)).toInt = _ ↔ (d (ix2 e 0)).toInt = _
    rw [show d' (ix2 (Fin.castAdd P e) 0) = d (ix2 e 0) from hd e]
  · show h (ix2 (clampRow (g' (ix2 (Fin.castAdd P e) 0))) j) * s' (Fin.castAdd P e) = _
    rw [show g' (ix2 (Fin.castAdd P e) 0) = g (ix2 e 0) from hg e, show s' (Fin.castAdd P e) = s e from hs e]
  · show h _ * s' (Fin.natAdd E q) = 0
    rw [hz (Fin.natAdd E q) (by show E ≤ E + q.val; omega), mul_zero]

/-- PADDING, the network: with both layers' edge columns padded by weight-zero edges, the output is the output over the
    unpadded columns. -/
theorem outAt_pad {E P E' : Nat} (hE : E' = E + P) (x : Tab 50000 128) (w1 : Tab 128 128) (b1 : Row 128) (w2 : Tab 128 64)
    (b2 : Row 64) (g1' d1' : ICol E') (s1' : Fin E' → EReal) (g2' d2' : ICol E') (s2' : Fin E' → EReal)
    (g1 d1 : ICol E) (s1 : Fin E → EReal) (g2 d2 : ICol E) (s2 : Fin E → EReal)
    (hg1 : ∀ e : Fin E, g1' (ix2 ⟨e.val, by omega⟩ 0) = g1 (ix2 e 0))
    (hd1 : ∀ e : Fin E, d1' (ix2 ⟨e.val, by omega⟩ 0) = d1 (ix2 e 0))
    (hs1 : ∀ e : Fin E, s1' ⟨e.val, by omega⟩ = s1 e)
    (hz1 : ∀ e' : Fin E', E ≤ e'.val → s1' e' = 0)
    (hg2 : ∀ e : Fin E, g2' (ix2 ⟨e.val, by omega⟩ 0) = g2 (ix2 e 0))
    (hd2 : ∀ e : Fin E, d2' (ix2 ⟨e.val, by omega⟩ 0) = d2 (ix2 e 0))
    (hs2 : ∀ e : Fin E, s2' ⟨e.val, by omega⟩ = s2 e)
    (hz2 : ∀ e' : Fin E', E ≤ e'.val → s2' e' = 0) (n : Fin 50000) (j : Fin 64) :
    outAt x w1 b1 w2 b2 g1' d1' s1' g2' d2' s2' n j = outAt x w1 b1 w2 b2 g1 d1 s1 g2 d2 s2 n j := by
  unfold outAt
  have hh : hidden x w1 b1 g1' d1' s1' = hidden x w1 b1 g1 d1 s1 := by
    unfold hidden
    refine congrArg tab2 (funext fun n => funext fun j => ?_)
    rw [aggAt_pad hE _ g1' d1' s1' g1 d1 s1 hg1 hd1 hs1 hz1]
  rw [hh, aggAt_pad hE _ g2' d2' s2' g2 d2 s2 hg2 hd2 hs2 hz2]

end Cert.Bridge

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.RegMM.lean ====
/-
  THE TWO MATRIX-PRODUCT REGIONS, AS WHOLE ARRAYS.

  Each multiplies a [50000, 128] array by a [128, W] weight array, ten blocks of 5000 rows at a time: the block at point
  t is rows 5000·t … 5000·t + 4999 of the left array against the whole weight array, and is written to the same rows of the
  output. Read at the exact values (where rounding to a narrower format is the identity) the output array is, element
  by element, the matrix product of the two arrays the region finds.
-/
import proofs.«169315_j54537494724630_1_alg».proof.Proof.Gen.KernelIdeal.Frame
import proofs.«169315_j54537494724630_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.ValueIdx Idealize.SL.Sem
open Cert.KernelIdeal Cert.KernelIdeal.Gen Cert.Bridge
open Idealize.ShloMosaic.Pipeline (Dat)

variable (V : (c : Dev nD) → (b : Ref sig .tc) → Buf (Elt Ideal) ((c : Thread nD τ).loc b))

/-- Offsets (0, 0), as the constant function. -/
theorem mm_zero_offsets : (![0, 0] : Fin 2 → Nat) = fun _ => 0 := funext fun a => by fin_cases a <;> rfl

/-- An array given by a function of its two coordinates, read at an index whose coordinates are known. -/
theorem mm_tab2_at {N W : Nat} (f : Fin N → Fin W → EReal) (i : (⟨2, ![N, W]⟩ : Shape).Idx) (n : Fin N) (j : Fin W)
    (h0 : (i 0).val = n.val) (h1 : (i 1).val = j.val) : tab2 f i = f n j := by
  show f ⟨(i 0).val, _⟩ ⟨(i 1).val, _⟩ = f n j
  congr 1
  · exact Fin.ext h0
  · exact Fin.ext h1

/-! ### The product block of region 0: the contraction's operand indices, axis by axis -/

/-- The left operand's row is the output's row. -/
theorem lhs_mm0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem lhs_mm0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem rhs_mm0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_mm0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at entry (p, q) of its block: the sum over k of left (p, k) times right (k, q); the changes of
    format are the identity at the exact values and the accumulator is zero. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]
  rfl

/-! ### Region 0: from the blocks to the array -/

/-- The product of the two arrays region 0 finds, as one array. -/
abbrev prod0 (c : Dev nD) : Tab 50000 128 :=
  tab2 (mmAt (V c (Pipeline.arrRef spec0 0)) (V c (Pipeline.arrRef spec0 1)))

/-- The block indices over the grid: the left window's row block is the output's and its column block is 0; the weight
    window stays at block (0, 0); the output's row block is the point's number and its column block is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The body's block at row block b, from blocks that are rows 5000·b … 5000·b + 4999 of the left array and the whole
    weight array: entry (p, q) is the product's entry (5000·b + p, q). -/
theorem block_apply0 (X : Tab 50000 128) (W : Tab 128 128) (x0 : Vec Ideal S5000x128 .f32) (x1 : Vec Ideal S128x128 .f32)
    (b : Nat) (hb : b < 10)
    (h0 : ∀ (p : Fin 5000) (k : Fin 128), x0 (ix2 p k) = X (ix2 (⟨b * 5000 + p.val, by omega⟩ : Fin 50000) k))
    (h1 : ∀ (k : Fin 128) (q : Fin 128), x1 (ix2 k q) = W (ix2 k q))
    (p : Fin 5000) (q : Fin 128) :
    k0_pay1 x0 x1 (ix2 p q) = mmAt X W (⟨b * 5000 + p.val, by omega⟩ : Fin 50000) q := by
  rw [pay0_apply]
  unfold mmAt
  exact Finset.sum_congr rfl fun k _ => by rw [h0, h1]

/-- WHAT POINT t WRITES BACK is block t of the product of the two arrays the region finds. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero mm_zero_offsets]
  simp only [View.ld_unit_zero (S := S5000x128) mm_zero_offsets, View.ld_unit_zero (S := S128x128) mm_zero_offsets]
  obtain ⟨e0, e1, e2, e3, e4, e5⟩ := idx_facts0 t
  have hN : cfg0.N = 10 := N_0
  have ht : t.val < 10 := hN ▸ t.isLt
  funext y
  obtain ⟨p, q, rfl⟩ : ∃ (p : Fin 5000) (q : Fin 128), y = ix2 p q := ⟨y 0, y 1, eq_ix2 y⟩
  refine (block_apply0 (V c (Pipeline.arrRef spec0 0)) (V c (Pipeline.arrRef spec0 1)) (iblk0 V c 0 t) (iblk0 V c 1 t)
    t.val ht ?_ ?_ p q).trans ?_
  · intro p k
    show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show _ = prod0 V c (((cfg0.win 2).blk t).view.emb (ix2 p q))
    refine (mm_tab2_at (mmAt (V c (Pipeline.arrRef spec0 0)) (V c (Pipeline.arrRef spec0 1)))
      (((cfg0.win 2).blk t).view.emb (ix2 p q)) (⟨t.val * 5000 + p.val, by omega⟩ : Fin 50000) q ?_ ?_).symm
    · show win0_2.index t (0 : Fin 2) * 5000 + 1 * p.val = t.val * 5000 + p.val
      omega
    · show win0_2.index t (1 : Fin 2) * 128 + 1 * q.val = q.val
      omega

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- Every index of the output array is in the block of the point numbered by its row divided by 5000, and every point
    writes its block back. -/
theorem cover0 (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY after the run of region 0: the product of the two arrays the region finds. -/
theorem final0 (c : Dev nD) : (dat0 (F := Ideal) V c).arrAt 2 cfg0.N = prod0 V c :=
  (dat0 (F := Ideal) V c).arrAt_eq_of_cover 2 (prod0 V c) (fun t _ => flushed0_eq V c t) (cover0)

/-- THE STATEMENT for region 0: entry (n, j) of the output array is the sum over k of entry (n, k) of the left array
    times entry (k, j) of the weight array. -/
theorem reg0_apply (c : Dev nD) (n : Fin 50000) (j : Fin 128) :
    at2 ((dat0 (F := Ideal) V c).arrAt 2 cfg0.N) n j
      = mmAt (V c (Pipeline.arrRef spec0 0)) (V c (Pipeline.arrRef spec0 1)) n j := by
  unfold at2
  exact (congrFun (final0 V c) (ix2 n j)).trans (tab2_apply _ n j)

/-! ### The product block of region 3: the contraction's operand indices, axis by axis -/

/-- The left operand's row is the output's row. -/
theorem lhs_mm3_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contraction index. -/
theorem lhs_mm3_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contraction index. -/
theorem rhs_mm3_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem rhs_mm3_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's value at entry (p, q) of its block: the sum over k of left (p, k) times right (k, q); the reshape to
    the same shape and the changes of format are the identity at the exact values and the accumulator is zero. -/
theorem pay3_apply (x0 : Vec Ideal S5000x128 .f32) (x1 : Vec Ideal S128x64 .f32) (p : Fin 5000) (q : Fin 64) :
    k3_pay1 x0 x1 (ix2 p q) = ∑ k : Fin 128, x0 (ix2 p k) * x1 (ix2 k q) := by
  unfold k3_pay1
  simp only [shapeCast_self]
  refine (Ideal.matmul_constant_zero_apply dot_S5000x128_S128x64_S5000x64_1_0_0_1_n_n none _ _ (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_mm3_0 _ _
    | ⟨1, _⟩ => exact (lhs_mm3_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_mm3_0 _ _).trans hk
    | ⟨1, _⟩ => exact rhs_mm3_1 _ _)
  rw [el, er]
  rfl

/-! ### Region 3: from the blocks to the array -/

/-- The product of the two arrays region 3 finds, as one array. -/
abbrev prod3 (c : Dev nD) : Tab 50000 64 :=
  tab2 (mmAt (V c (Pipeline.arrRef spec3 0)) (V c (Pipeline.arrRef spec3 1)))

/-- The block indices over the grid: the left window's row block is the output's and its column block is 0; the weight
    window stays at block (0, 0); the output's row block is the point's number and its column block is 0. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The body's block at row block b, from blocks that are rows 5000·b … 5000·b + 4999 of the left array and the whole
    weight array: entry (p, q) is the product's entry (5000·b + p, q). -/
theorem block_apply3 (X : Tab 50000 128) (W : Tab 128 64) (x0 : Vec Ideal S5000x128 .f32) (x1 : Vec Ideal S128x64 .f32)
    (b : Nat) (hb : b < 10)
    (h0 : ∀ (p : Fin 5000) (k : Fin 128), x0 (ix2 p k) = X (ix2 (⟨b * 5000 + p.val, by omega⟩ : Fin 50000) k))
    (h1 : ∀ (k : Fin 128) (q : Fin 64), x1 (ix2 k q) = W (ix2 k q))
    (p : Fin 5000) (q : Fin 64) :
    k3_pay1 x0 x1 (ix2 p q) = mmAt X W (⟨b * 5000 + p.val, by omega⟩ : Fin 50000) q := by
  rw [pay3_apply]
  unfold mmAt
  exact Finset.sum_congr rfl fun k _ => by rw [h0, h1]

/-- WHAT POINT t WRITES BACK is block t of the product of the two arrays the region finds. -/
theorem flushed3_eq (c : Dev nD) (t : Fin cfg3.N) :
    (dat3 (F := Ideal) V c).flushed 2 t = ((cfg3.win 2).blk t).view.read (Elt Ideal) (prod3 V c) := by
  show (cfg3.win 2).cut (grid3.coords t) ((dat3 (F := Ideal) V c).after 2 t) = _
  rw [after3_2]
  unfold out3_2
  rw [View.canon_unit_zero mm_zero_offsets]
  simp only [View.ld_unit_zero (S := S5000x128) mm_zero_offsets, View.ld_unit_zero (S := S128x64) mm_zero_offsets]
  obtain ⟨e0, e1, e2, e3, e4, e5⟩ := idx_facts3 t
  have hN : cfg3.N = 10 := N_3
  have ht : t.val < 10 := hN ▸ t.isLt
  funext y
  obtain ⟨p, q, rfl⟩ : ∃ (p : Fin 5000) (q : Fin 64), y = ix2 p q := ⟨y 0, y 1, eq_ix2 y⟩
  refine (block_apply3 (V c (Pipeline.arrRef spec3 0)) (V c (Pipeline.arrRef spec3 1)) (iblk3 V c 0 t) (iblk3 V c 1 t)
    t.val ht ?_ ?_ p q).trans ?_
  · intro p k
    show V c (Pipeline.arrRef spec3 0) (((cfg3.win 0).blk t).view.emb (ix2 p k)) = _
    refine congrArg (V c (Pipeline.arrRef spec3 0)) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · intro k q
    show V c (Pipeline.arrRef spec3 1) (((cfg3.win 1).blk t).view.emb (ix2 k q)) = _
    refine congrArg (V c (Pipeline.arrRef spec3 1)) (funext fun a => Fin.ext ?_)
    match a with
    | ⟨0, _⟩ => show win3_1.index t (0 : Fin 2) * 128 + 1 * k.val = k.val; omega
    | ⟨1, _⟩ => show win3_1.index t (1 : Fin 2) * 64 + 1 * q.val = q.val; omega
  · show _ = prod3 V c (((cfg3.win 2).blk t).view.emb (ix2 p q))
    refine (mm_tab2_at (mmAt (V c (Pipeline.arrRef spec3 0)) (V c (Pipeline.arrRef spec3 1)))
      (((cfg3.win 2).blk t).view.emb (ix2 p q)) (⟨t.val * 5000 + p.val, by omega⟩ : Fin 50000) q ?_ ?_).symm
    · show win3_2.index t (0 : Fin 2) * 5000 + 1 * p.val = t.val * 5000 + p.val
      omega
    · show win3_2.index t (1 : Fin 2) * 64 + 1 * q.val = q.val
      omega

/-- An index of the array is in point t's block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v50).slice (win3_2.rect t)).set ↔ _
  rw [View.set_slice_whole, Rect.mem_set_unit]
  exact Iff.rfl

/-- Every index of the output array is in the block of the point numbered by its row divided by 5000, and every point
    writes its block back. -/
theorem cover3 (i : S50000x64.Idx) :
    ∃ t : Fin cfg3.N, (cfg3.win 2).flush t = true ∧ i ∈ ((cfg3.win 2).blk t).view.set := by
  have hN : cfg3.N = 10 := N_3
  have hi0 : (i 0).val < 50000 := (i 0).isLt
  have hi1 : (i 1).val < 64 := (i 1).isLt
  obtain ⟨t, ht⟩ : ∃ t : Fin cfg3.N, t.val = (i 0).val / 5000 := ⟨⟨(i 0).val / 5000, by rw [hN]; omega⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- THE ARRAY after the run of region 3: the product of the two arrays the region finds. -/
theorem final3 (c : Dev nD) : (dat3 (F := Ideal) V c).arrAt 2 cfg3.N = prod3 V c :=
  (dat3 (F := Ideal) V c).arrAt_eq_of_cover 2 (prod3 V c) (fun t _ => flushed3_eq V c t) (cover3)

/-- THE STATEMENT for region 3: entry (n, j) of the output array is the sum over k of entry (n, k) of the left array
    times entry (k, j) of the weight array. -/
theorem reg3_apply (c : Dev nD) (n : Fin 50000) (j : Fin 64) :
    at2 ((dat3 (F := Ideal) V c).arrAt 2 cfg3.N) n j
      = mmAt (V c (Pipeline.arrRef spec3 0)) (V c (Pipeline.arrRef spec3 1)) n j := by
  unfold at2
  exact (congrFun (final3 V c) (ix2 n j)).trans (tab2_apply _ n j)

end Cert.KernelIdeal.Reg

end
-- ==== Proof.RegScale.lean ====
/-
  THE TWO ROW-SCALING REGIONS, AS WHOLE ARRAYS.

  Each multiplies every row of an [851968, W] array by that row's entry of an [851968, 1] column, 208 blocks of 4096 rows at a
  time: the block at point t is rows 4096·t … 4096·t + 4095 of both, written to the same rows of the output. The output
  array is, element by element, the product of the array's element and its row's entry of the column.
-/
import proofs.«169315_j54537494724630_1_alg».proof.Proof.Gen.KernelIdeal.Frame
import proofs.«169315_j54537494724630_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.ValueIdx Idealize.SL.Sem
open Cert.KernelIdeal Cert.KernelIdeal.Gen Cert.Bridge
open Idealize.ShloMosaic.Pipeline (Dat)

/-- The zero offsets of a whole-buffer access, as a constant function. -/
theorem scale_zero_offsets : (![0, 0] : Fin 2 → Nat) = fun _ => 0 := funext fun a => by
  match a with
  | ⟨0, _⟩ => rfl
  | ⟨1, _⟩ => rfl

/-- A column [a, 1] broadcast to [a, b] reads, at (p, q), the column's entry (p, 0). -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The first scaling kernel's payload at (p, q): the block's element times the column block's entry of row p. -/
theorem pay1_apply (x0 : Vec Ideal S4096x128 .f32) (x1 : Vec Ideal S4096x1 .f32) (p : Fin 4096) (q : Fin 128) :
    k1_pay1 x0 x1 (ix2 p q) = x0 (ix2 p q) * x1 (ix2 p 0) := by
  unfold k1_pay1
  rw [mulf_apply, shapeCast_self, shapeCast_self]
  exact congrArg (x0 (ix2 p q) * ·) (broadcastTo_column_apply x1 broadcasts_S4096x1_S4096x128 p q)

/-- The payload at (p, q), when the block's element there is the array's at (e, q) and the column block's entry of row p is
    the column's entry of row e: the array's element times its row's entry of the column. -/
theorem pay1_scale (A : Tab 851968 128) (S : Tab 851968 1) (x0 : Vec Ideal S4096x128 .f32) (x1 : Vec Ideal S4096x1 .f32)
    (p : Fin 4096) (q : Fin 128) (e : Fin 851968)
    (h0 : x0 (ix2 p q) = A (ix2 e q)) (h1 : x1 (ix2 p 0) = S (ix2 e 0)) :
    k1_pay1 x0 x1 (ix2 p q) = scaleAt A S e q := by
  rw [pay1_apply, h0, h1]
  rfl

/-- The second scaling kernel's payload at (p, q): the block's element times the column block's entry of row p. -/
theorem pay4_apply (x0 : Vec Ideal S4096x64 .f32) (x1 : Vec Ideal S4096x1 .f32) (p : Fin 4096) (q : Fin 64) :
    k4_pay1 x0 x1 (ix2 p q) = x0 (ix2 p q) * x1 (ix2 p 0) := by
  unfold k4_pay1
  rw [mulf_apply, shapeCast_self, shapeCast_self]
  exact congrArg (x0 (ix2 p q) * ·) (broadcastTo_column_apply x1 broadcasts_S4096x1_S4096x64 p q)

/-- The payload at (p, q), when the block's element there is the array's at (e, q) and the column block's entry of row p is
    the column's entry of row e: the array's element times its row's entry of the column. -/
theorem pay4_scale (A : Tab 851968 64) (S : Tab 851968 1) (x0 : Vec Ideal S4096x64 .f32) (x1 : Vec Ideal S4096x1 .f32)
    (p : Fin 4096) (q : Fin 64) (e : Fin 851968)
    (h0 : x0 (ix2 p q) = A (ix2 e q)) (h1 : x1 (ix2 p 0) = S (ix2 e 0)) :
    k4_pay1 x0 x1 (ix2 p q) = scaleAt A S e q := by
  rw [pay4_apply, h0, h1]
  rfl

variable (V : (c : Dev nD) → (b : Ref sig .tc) → Buf (Elt Ideal) ((c : Thread nD τ).loc b))

/-! ## The first scaling region (width 128) -/

/-- The whole output array of the first scaling region: every element of the array times its row's entry of the column. -/
abbrev G1 (c : Dev nD) : Tab 851968 128 :=
  tab2 fun n j => scaleAt (V c (Pipeline.arrRef spec1 0)) (V c (Pipeline.arrRef spec1 1)) n j

/-- The index maps over the grid: at point t all three windows are on row block t, column block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array product. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero scale_zero_offsets]
  simp only [View.ld_unit_zero (S := S4096x128) scale_zero_offsets, View.ld_unit_zero (S := S4096x1) scale_zero_offsets]
  obtain ⟨e0, e1, e2, e3, e4, e5⟩ := idx_facts1 t
  funext y
  obtain ⟨p, q, rfl⟩ : ∃ (p : Fin 4096) (q : Fin 128), y = ix2 p q := ⟨y 0, y 1, eq_ix2 y⟩
  have hN : cfg1.N = 208 := N_1
  have ht : t.val < 208 := hN ▸ t.isLt
  have hp : p.val < 4096 := p.isLt
  have hq : q.val < 128 := q.isLt
  have hrow : t.val * 4096 + p.val < 851968 := by omega
  have h0 : ((cfg1.win 0).blk t).view.emb (ix2 p q) = ix2 (⟨t.val * 4096 + p.val, hrow⟩ : Fin 851968) q := by
    funext a; apply Fin.ext
    match a with
    | ⟨0, _⟩ => show win1_0.index t (0 : Fin 2) * 4096 + 1 * p.val = t.val * 4096 + p.val; omega
    | ⟨1, _⟩ => show win1_0.index t (1 : Fin 2) * 128 + 1 * q.val = q.val; omega
  have h1 : ((cfg1.win 1).blk t).view.emb (ix2 p (0 : Fin 1)) = ix2 (⟨t.val * 4096 + p.val, hrow⟩ : Fin 851968) (0 : Fin 1) := by
    funext a; apply Fin.ext
    match a with
    | ⟨0, _⟩ => show win1_1.index t (0 : Fin 2) * 4096 + 1 * p.val = t.val * 4096 + p.val; omega
    | ⟨1, _⟩ => show win1_1.index t (1 : Fin 2) * 1 + 1 * 0 = 0; omega
  have h2 : ((cfg1.win 2).blk t).view.emb (ix2 p q) = ix2 (⟨t.val * 4096 + p.val, hrow⟩ : Fin 851968) q := by
    funext a; apply Fin.ext
    match a with
    | ⟨0, _⟩ => show win1_2.index t (0 : Fin 2) * 4096 + 1 * p.val = t.val * 4096 + p.val; omega
    | ⟨1, _⟩ => show win1_2.index t (1 : Fin 2) * 128 + 1 * q.val = q.val; omega
  refine (pay1_scale (V c (Pipeline.arrRef spec1 0)) (V c (Pipeline.arrRef spec1 1)) (iblk1 V c 0 t) (iblk1 V c 1 t) p q
    ⟨t.val * 4096 + p.val, hrow⟩ ?_ ?_).trans ?_
  · show V c (Pipeline.arrRef spec1 0) (((cfg1.win 0).blk t).view.emb (ix2 p q)) = _
    exact congrArg (V c (Pipeline.arrRef spec1 0)) h0
  · show V c (Pipeline.arrRef spec1 1) (((cfg1.win 1).blk t).view.emb (ix2 p (0 : Fin 1))) = _
    exact congrArg (V c (Pipeline.arrRef spec1 1)) h1
  · show _ = G1 V c (((cfg1.win 2).blk t).view.emb (ix2 p q))
    rw [h2]
    rfl

/-- An index of the array is in point t's block iff each coordinate is in the block's range on its axis. -/
theorem mem_blk1 (t : Fin cfg1.N) (i : S851968x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v44).slice (win1_2.rect t)).set ↔ _
  rw [View.set_slice_whole, Rect.mem_set_unit]
  exact Iff.rfl

/-- Every index of the array is in some point's block: row r is in the block of point r / 4096, and every point writes back. -/
theorem cover1 (i : S851968x128.Idx) :
    ∃ t : Fin cfg1.N, (cfg1.win 2).flush t = true ∧ i ∈ ((cfg1.win 2).blk t).view.set := by
  have hi0 : (i 0).val < 851968 := (i 0).isLt
  have hi1 : (i 1).val < 128 := (i 1).isLt
  have hN : cfg1.N = 208 := N_1
  have hlt : (i 0).val / 4096 < cfg1.N := by rw [hN]; omega
  refine ⟨⟨(i 0).val / 4096, hlt⟩, flush1_2 _, ?_⟩
  rw [mem_blk1]
  obtain ⟨e0, e1, e2, e3, e4, e5⟩ := idx_facts1 ⟨(i 0).val / 4096, hlt⟩
  have e4' : win1_2.index ⟨(i 0).val / 4096, hlt⟩ (0 : Fin 2) = (i 0).val / 4096 := e4
  intro a
  match a with
  | ⟨0, _⟩ =>
    show win1_2.index ⟨(i 0).val / 4096, hlt⟩ (0 : Fin 2) * 4096 ≤ (i 0).val ∧ (i 0).val < win1_2.index ⟨(i 0).val / 4096, hlt⟩ (0 : Fin 2) * 4096 + 4096
    omega
  | ⟨1, _⟩ =>
    show win1_2.index ⟨(i 0).val / 4096, hlt⟩ (1 : Fin 2) * 128 ≤ (i 1).val ∧ (i 1).val < win1_2.index ⟨(i 0).val / 4096, hlt⟩ (1 : Fin 2) * 128 + 128
    omega

/-- The output array after the run is the whole-array product. -/
theorem final1 (c : Dev nD) : (dat1 V c).arrAt 2 cfg1.N = G1 V c :=
  (dat1 V c).arrAt_eq_of_cover 2 (G1 V c) (fun t _ => flushed1_eq V c t) cover1

theorem reg1_apply (c : Dev nD) (e : Fin 851968) (j : Fin 128) :
    at2 ((dat1 (F := Ideal) V c).arrAt 2 cfg1.N) e j
      = scaleAt (V c (Pipeline.arrRef spec1 0)) (V c (Pipeline.arrRef spec1 1)) e j := by
  unfold at2
  exact (congrFun (final1 V c) (ix2 e j)).trans (tab2_apply _ e j)

/-! ## The second scaling region (width 64) -/

/-- The whole output array of the second scaling region: every element of the array times its row's entry of the column. -/
abbrev G4 (c : Dev nD) : Tab 851968 64 :=
  tab2 fun n j => scaleAt (V c (Pipeline.arrRef spec4 0)) (V c (Pipeline.arrRef spec4 1)) n j

/-- The index maps over the grid: at point t all three windows are on row block t, column block 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the whole-array product. -/
theorem flushed4_eq (c : Dev nD) (t : Fin cfg4.N) :
    (dat4 V c).flushed 2 t = ((cfg4.win 2).blk t).view.read (Elt Ideal) (G4 V c) := by
  show (cfg4.win 2).cut (grid4.coords t) ((dat4 V c).after 2 t) = _
  rw [after4_2]
  unfold out4_2
  rw [View.canon_unit_zero scale_zero_offsets]
  simp only [View.ld_unit_zero (S := S4096x64) scale_zero_offsets, View.ld_unit_zero (S := S4096x1) scale_zero_offsets]
  obtain ⟨e0, e1, e2, e3, e4, e5⟩ := idx_facts4 t
  funext y
  obtain ⟨p, q, rfl⟩ : ∃ (p : Fin 4096) (q : Fin 64), y = ix2 p q := ⟨y 0, y 1, eq_ix2 y⟩
  have hN : cfg4.N = 208 := N_4
  have ht : t.val < 208 := hN ▸ t.isLt
  have hp : p.val < 4096 := p.isLt
  have hq : q.val < 64 := q.isLt
  have hrow : t.val * 4096 + p.val < 851968 := by omega
  have h0 : ((cfg4.win 0).blk t).view.emb (ix2 p q) = ix2 (⟨t.val * 4096 + p.val, hrow⟩ : Fin 851968) q := by
    funext a; apply Fin.ext
    match a with
    | ⟨0, _⟩ => show win4_0.index t (0 : Fin 2) * 4096 + 1 * p.val = t.val * 4096 + p.val; omega
    | ⟨1, _⟩ => show win4_0.index t (1 : Fin 2) * 64 + 1 * q.val = q.val; omega
  have h1 : ((cfg4.win 1).blk t).view.emb (ix2 p (0 : Fin 1)) = ix2 (⟨t.val * 4096 + p.val, hrow⟩ : Fin 851968) (0 : Fin 1) := by
    funext a; apply Fin.ext
    match a with
    | ⟨0, _⟩ => show win4_1.index t (0 : Fin 2) * 4096 + 1 * p.val = t.val * 4096 + p.val; omega
    | ⟨1, _⟩ => show win4_1.index t (1 : Fin 2) * 1 + 1 * 0 = 0; omega
  have h2 : ((cfg4.win 2).blk t).view.emb (ix2 p q) = ix2 (⟨t.val * 4096 + p.val, hrow⟩ : Fin 851968) q := by
    funext a; apply Fin.ext
    match a with
    | ⟨0, _⟩ => show win4_2.index t (0 : Fin 2) * 4096 + 1 * p.val = t.val * 4096 + p.val; omega
    | ⟨1, _⟩ => show win4_2.index t (1 : Fin 2) * 64 + 1 * q.val = q.val; omega
  refine (pay4_scale (V c (Pipeline.arrRef spec4 0)) (V c (Pipeline.arrRef spec4 1)) (iblk4 V c 0 t) (iblk4 V c 1 t) p q
    ⟨t.val * 4096 + p.val, hrow⟩ ?_ ?_).trans ?_
  · show V c (Pipeline.arrRef spec4 0) (((cfg4.win 0).blk t).view.emb (ix2 p q)) = _
    exact congrArg (V c (Pipeline.arrRef spec4 0)) h0
  · show V c (Pipeline.arrRef spec4 1) (((cfg4.win 1).blk t).view.emb (ix2 p (0 : Fin 1))) = _
    exact congrArg (V c (Pipeline.arrRef spec4 1)) h1
  · show _ = G4 V c (((cfg4.win 2).blk t).view.emb (ix2 p q))
    rw [h2]
    rfl

/-- An index of the array is in point t's block iff each coordinate is in the block's range on its axis. -/
theorem mem_blk4 (t : Fin cfg4.N) (i : S851968x64.Idx) :
    i ∈ ((cfg4.win 2).blk t).view.set ↔ ∀ a : Fin 2, win4_2.index t a * S4096x64.size a ≤ (i a).val ∧ (i a).val < win4_2.index t a * S4096x64.size a + S4096x64.size a := by
  show i ∈ ((View.whole main_v58).slice (win4_2.rect t)).set ↔ _
  rw [View.set_slice_whole, Rect.mem_set_unit]
  exact Iff.rfl

/-- Every index of the array is in some point's block: row r is in the block of point r / 4096, and every point writes back. -/
theorem cover4 (i : S851968x64.Idx) :
    ∃ t : Fin cfg4.N, (cfg4.win 2).flush t = true ∧ i ∈ ((cfg4.win 2).blk t).view.set := by
  have hi0 : (i 0).val < 851968 := (i 0).isLt
  have hi1 : (i 1).val < 64 := (i 1).isLt
  have hN : cfg4.N = 208 := N_4
  have hlt : (i 0).val / 4096 < cfg4.N := by rw [hN]; omega
  refine ⟨⟨(i 0).val / 4096, hlt⟩, flush4_2 _, ?_⟩
  rw [mem_blk4]
  obtain ⟨e0, e1, e2, e3, e4, e5⟩ := idx_facts4 ⟨(i 0).val / 4096, hlt⟩
  have e4' : win4_2.index ⟨(i 0).val / 4096, hlt⟩ (0 : Fin 2) = (i 0).val / 4096 := e4
  intro a
  match a with
  | ⟨0, _⟩ =>
    show win4_2.index ⟨(i 0).val / 4096, hlt⟩ (0 : Fin 2) * 4096 ≤ (i 0).val ∧ (i 0).val < win4_2.index ⟨(i 0).val / 4096, hlt⟩ (0 : Fin 2) * 4096 + 4096
    omega
  | ⟨1, _⟩ =>
    show win4_2.index ⟨(i 0).val / 4096, hlt⟩ (1 : Fin 2) * 64 ≤ (i 1).val ∧ (i 1).val < win4_2.index ⟨(i 0).val / 4096, hlt⟩ (1 : Fin 2) * 64 + 64
    omega

/-- The output array after the run is the whole-array product. -/
theorem final4 (c : Dev nD) : (dat4 V c).arrAt 2 cfg4.N = G4 V c :=
  (dat4 V c).arrAt_eq_of_cover 2 (G4 V c) (fun t _ => flushed4_eq V c t) cover4

theorem reg4_apply (c : Dev nD) (e : Fin 851968) (j : Fin 64) :
    at2 ((dat4 (F := Ideal) V c).arrAt 2 cfg4.N) e j
      = scaleAt (V c (Pipeline.arrRef spec4 0)) (V c (Pipeline.arrRef spec4 1)) e j := by
  unfold at2
  exact (congrFun (final4 V c) (ix2 e j)).trans (tab2_apply _ e j)

end Cert.KernelIdeal.Reg

end
-- ==== Proof.RegBias.lean ====
/-
  THE TWO BIAS REGIONS, AS WHOLE ARRAYS.

  Each adds a [1, W] row to every row of a [50000, W] array, ten blocks of 5000 rows at a time (the row window is the whole
  [1, W] array at every point); the first also takes the positive part. The output array is, element by element, the
  array's element plus the row's entry of that column (and its maximum with zero).
-/
import proofs.«169315_j54537494724630_1_alg».proof.Proof.Gen.KernelIdeal.Frame
import proofs.«169315_j54537494724630_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.ValueIdx Idealize.SL.Sem
open Cert.KernelIdeal Cert.KernelIdeal.Gen Cert.Bridge
open Idealize.ShloMosaic.Pipeline (Dat)

variable (V : (c : Dev nD) → (b : Ref sig .tc) → Buf (Elt Ideal) ((c : Thread nD τ).loc b))

/-- The zero offsets of a whole-buffer access, as the constant function. -/
theorem bias_zero_offsets : (![0, 0] : Fin 2 → Nat) = fun _ => 0 := funext fun a => by fin_cases a <;> rfl

/-! ## The first bias region: a row added to every row of a block, then the positive part -/

/-- The block computation at row `p`, column `q`: the array block's element plus the row's entry of column `q`, and
    its maximum with zero. -/
theorem biasRelu_block_apply (x0 : Vec Ideal S5000x128 .f32) (x1 : Vec Ideal S1x128 .f32) (p : Fin 5000) (q : Fin 128) :
    k2_pay1 x0 x1 (ix2 p q) = max (x0 (ix2 p q) + x1 (ix2 0 q)) 0 := by
  unfold k2_pay1
  rw [shapeCast_self, shapeCast_self, maximumf_apply, addf_apply, broadcast_apply, broadcastTo_1b_ab_apply]
  show max (x0 (ix2 p q) + x1 (ix2 0 q)) (Ideal.ofBits .f32 0x00000000#32) = _
  rw [Ideal.ofBits_zero_f32]

/-- The whole output array of the first bias region: at row `n`, column `j`, the array's element plus the row's entry of
    column `j`, and its maximum with zero. -/
abbrev biasReluArr (c : Dev nD) : Tab 50000 128 :=
  tab2 fun n j => biasReluAt (V c (Pipeline.arrRef spec2 0)) (V c (Pipeline.arrRef spec2 1)) n j

/-- That array at an index `i'`, from the array read at the same index and the row read at row 0 of `i'`'s column. -/
theorem biasReluArr_read (x : Tab 50000 128) (b : Tab 1 128) (i i' : (⟨2, ![50000, 128]⟩ : Shape).Idx)
    (k : (⟨2, ![1, 128]⟩ : Shape).Idx) (hi : i = i') (hk : k = ix2 0 ⟨(i' 1).val, idx2_lt1 i'⟩) :
    max (x i + b k) 0 = tab2 (fun n j => biasReluAt x b n j) i' := by
  subst hi hk
  have e : i = ix2 ⟨(i 0).val, idx2_lt0 i⟩ ⟨(i 1).val, idx2_lt1 i⟩ := eq_ix2 i
  exact congrArg (fun z => max (x z + b (ix2 0 ⟨(i 1).val, idx2_lt1 i⟩)) 0) e

/-- Which block each window holds at a grid point: the array window's row block is the output's and its column block
    is 0; the row window stays at block (0, 0); the output's row block is the point's number, below 10. -/
theorem blocks2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ t.val < 10 :=
  (by decide +kernel : ∀ t : Fin grid2.N, _)

/-- What grid point `t` writes back is block `t` (rows 5000·t … 5000·t + 4999) of that array. -/
theorem flushed2_eq (c : Dev nD) (t : Fin cfg2.N) :
    (dat2 V c).flushed 2 t = ((cfg2.win 2).blk t).view.read (Elt Ideal) (biasReluArr V c) := by
  show (cfg2.win 2).cut (grid2.coords t) ((dat2 V c).after 2 t) = _
  rw [after2_2]
  unfold out2_2
  rw [View.canon_unit_zero bias_zero_offsets]
  simp only [View.ld_unit_zero (S := S5000x128) bias_zero_offsets, View.ld_unit_zero (S := S1x128) bias_zero_offsets]
  obtain ⟨e0, e1, e2, e3, e4, e5, e6⟩ := blocks2 t
  funext y
  obtain ⟨p, q, rfl⟩ : ∃ (p : Fin 5000) (q : Fin 128), y = ix2 p q := ⟨y 0, y 1, eq_ix2 y⟩
  show k2_pay1 (iblk2 V c 0 t) (iblk2 V c 1 t) (ix2 p q) = _
  refine (biasRelu_block_apply (iblk2 V c 0 t) (iblk2 V c 1 t) p q).trans ?_
  refine biasReluArr_read (V c (Pipeline.arrRef spec2 0)) (V c (Pipeline.arrRef spec2 1))
    (((cfg2.win 0).blk t).view.emb (ix2 p q)) (((cfg2.win 2).blk t).view.emb (ix2 p q))
    (((cfg2.win 1).blk t).view.emb (ix2 0 q)) ?_ ?_
  · funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = win2_2.index t (1 : Fin 2) * 128 + 1 * q.val; omega
  · funext a; apply Fin.ext
    match a with
    | ⟨0, _⟩ => show win2_1.index t (0 : Fin 2) * 1 + 1 * 0 = 0; omega
    | ⟨1, _⟩ => show win2_1.index t (1 : Fin 2) * 128 + 1 * q.val = win2_2.index t (1 : Fin 2) * 128 + 1 * q.val; omega

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v49).slice (win2_2.rect t)).set ↔ _
  rw [View.set_slice_whole, Rect.mem_set_unit]
  exact Iff.rfl

/-- The ten blocks cover the array: row `r` is in block `r / 5000`, and every point writes its block back. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨e0, e1, e2, e3, e4, e5, e6⟩ := blocks2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array the first bias region leaves is that array. -/
theorem final2 (c : Dev nD) : (dat2 V c).arrAt 2 cfg2.N = biasReluArr V c :=
  (dat2 V c).arrAt_eq_of_cover 2 (biasReluArr V c) (fun t _ => flushed2_eq V c t) cover2

/-- THE FIRST BIAS REGION's output array, element by element: the array's element plus the row's entry of that column,
    and its maximum with zero. -/
theorem reg2_apply (c : Dev nD) (n : Fin 50000) (j : Fin 128) :
    at2 ((dat2 (F := Ideal) V c).arrAt 2 cfg2.N) n j
      = biasReluAt (V c (Pipeline.arrRef spec2 0)) (V c (Pipeline.arrRef spec2 1)) n j := by
  unfold at2
  exact (congrFun (final2 V c) (ix2 n j)).trans (tab2_apply _ n j)

/-! ## The second bias region: a row added to every row of a block, no positive part -/

/-- The block computation at row `p`, column `q`: the array block's element plus the row's entry of column `q`. -/
theorem bias_block_apply (x0 : Vec Ideal S5000x64 .f32) (x1 : Vec Ideal S1x64 .f32) (p : Fin 5000) (q : Fin 64) :
    k5_pay1 x0 x1 (ix2 p q) = x0 (ix2 p q) + x1 (ix2 0 q) := by
  unfold k5_pay1
  rw [shapeCast_self, shapeCast_self, addf_apply, broadcastTo_1b_ab_apply]

/-- The whole output array of the second bias region: at row `n`, column `j`, the array's element plus the row's entry of
    column `j`. -/
abbrev biasArr (c : Dev nD) : Tab 50000 64 :=
  tab2 fun n j => biasAt (V c (Pipeline.arrRef spec5 0)) (V c (Pipeline.arrRef spec5 1)) n j

/-- That array at an index `i'`, from the array read at the same index and the row read at row 0 of `i'`'s column. -/
theorem biasArr_read (x : Tab 50000 64) (b : Tab 1 64) (i i' : (⟨2, ![50000, 64]⟩ : Shape).Idx)
    (k : (⟨2, ![1, 64]⟩ : Shape).Idx) (hi : i = i') (hk : k = ix2 0 ⟨(i' 1).val, idx2_lt1 i'⟩) :
    x i + b k = tab2 (fun n j => biasAt x b n j) i' := by
  subst hi hk
  have e : i = ix2 ⟨(i 0).val, idx2_lt0 i⟩ ⟨(i 1).val, idx2_lt1 i⟩ := eq_ix2 i
  exact congrArg (fun z => x z + b (ix2 0 ⟨(i 1).val, idx2_lt1 i⟩)) e

/-- Which block each window holds at a grid point: the array window's row block is the output's and its column block
    is 0; the row window stays at block (0, 0); the output's row block is the point's number, below 10. -/
theorem blocks5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0
    ∧ t.val < 10 :=
  (by decide +kernel : ∀ t : Fin grid5.N, _)

/-- What grid point `t` writes back is block `t` (rows 5000·t … 5000·t + 4999) of that array. -/
theorem flushed5_eq (c : Dev nD) (t : Fin cfg5.N) :
    (dat5 V c).flushed 2 t = ((cfg5.win 2).blk t).view.read (Elt Ideal) (biasArr V c) := by
  show (cfg5.win 2).cut (grid5.coords t) ((dat5 V c).after 2 t) = _
  rw [after5_2]
  unfold out5_2
  rw [View.canon_unit_zero bias_zero_offsets]
  simp only [View.ld_unit_zero (S := S5000x64) bias_zero_offsets, View.ld_unit_zero (S := S1x64) bias_zero_offsets]
  obtain ⟨e0, e1, e2, e3, e4, e5, e6⟩ := blocks5 t
  funext y
  obtain ⟨p, q, rfl⟩ : ∃ (p : Fin 5000) (q : Fin 64), y = ix2 p q := ⟨y 0, y 1, eq_ix2 y⟩
  show k5_pay1 (iblk5 V c 0 t) (iblk5 V c 1 t) (ix2 p q) = _
  refine (bias_block_apply (iblk5 V c 0 t) (iblk5 V c 1 t) p q).trans ?_
  refine biasArr_read (V c (Pipeline.arrRef spec5 0)) (V c (Pipeline.arrRef spec5 1))
    (((cfg5.win 0).blk t).view.emb (ix2 p q)) (((cfg5.win 2).blk t).view.emb (ix2 p q))
    (((cfg5.win 1).blk t).view.emb (ix2 0 q)) ?_ ?_
  · funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 64 + 1 * q.val = win5_2.index t (1 : Fin 2) * 64 + 1 * q.val; omega
  · funext a; apply Fin.ext
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega

/-- An index of the output array is in point `t`'s block iff each coordinate is in the block's range on its axis. -/
theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v63).slice (win5_2.rect t)).set ↔ _
  rw [View.set_slice_whole, Rect.mem_set_unit]
  exact Iff.rfl

/-- The ten blocks cover the array: row `r` is in block `r / 5000`, and every point writes its block back. -/
theorem cover5 (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ : ∃ t : Fin cfg5.N, t.val = (i 0).val / 5000 :=
    ⟨⟨(i 0).val / 5000, lt_of_lt_of_eq (by omega : (i 0).val / 5000 < 10) N_5.symm⟩, rfl⟩
  obtain ⟨e0, e1, e2, e3, e4, e5, e6⟩ := blocks5 t
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The output array the second bias region leaves is that array. -/
theorem final5 (c : Dev nD) : (dat5 V c).arrAt 2 cfg5.N = biasArr V c :=
  (dat5 V c).arrAt_eq_of_cover 2 (biasArr V c) (fun t _ => flushed5_eq V c t) cover5

/-- THE SECOND BIAS REGION's output array, element by element: the array's element plus the row's entry of that column. -/
theorem reg5_apply (c : Dev nD) (n : Fin 50000) (j : Fin 64) :
    at2 ((dat5 (F := Ideal) V c).arrAt 2 cfg5.N) n j
      = biasAt (V c (Pipeline.arrRef spec5 0)) (V c (Pipeline.arrRef spec5 1)) n j := by
  unfold at2
  exact (congrFun (final5 V c) (ix2 n j)).trans (tab2_apply _ n j)

end Cert.KernelIdeal.Reg

end
-- ==== Proof.KernelHost.lean ====
/-
  THE HOST STRETCHES OF THE KERNEL'S PROGRAM, READ ONE BOUNDARY AT A TIME.

  Between the launch and the return the program's buffers pass through fourteen boundaries: after each stretch of host
  operations and after each kernel region. Two kinds of fact carry a buffer's contents from one boundary to the next:
  a buffer that a stretch does not write, or that is not a region's output array, keeps its contents (the "keep" facts);
  and a buffer a stretch writes holds that stretch's operation applied to the contents its operands had at the boundary
  before (the "read" facts: a row gather, a row scatter-add, a broadcast of the row numbers, a reshape of a bias vector).
-/
import proofs.«169315_j54537494724630_1_alg».proof.Proof.Gen.KernelIdeal.Frame
import Idealize.ShloMosaic.Lib.StableHlo.Run

set_option maxRecDepth 16384

noncomputable section

namespace Cert.KernelIdeal.HostV

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## A region leaves every buffer but its output array as it found it

Each region has three arrays, two inputs and one output. An input array is never written, so at the region's exit it
holds what it held at entry; a buffer that is none of the three arrays is not touched by the region at all. -/
theorem keep4 (c : Dev nD) (b : Ref sig .tc) (hb : b ≠ main_v36) :
    W4 m ρ c (Proc.devRef .tc b) = W3 m ρ c (Proc.devRef .tc b) := by
  -- the region's first input array: read through its window, which is an input's and so never written
  by_cases h0 : b = main_arg0
  · subst h0
    exact (W4_arr m ρ c 0).trans (((dat0 (V3 m ρ) c).arrAt_in 0 rfl _).trans (A_eq0 (V3 m ρ) c 0))
  -- the region's second input array: the same
  by_cases h1 : b = main_arg2
  · subst h1
    exact (W4_arr m ρ c 1).trans (((dat0 (V3 m ρ) c).arrAt_in 1 rfl _).trans (A_eq0 (V3 m ρ) c 1))
  -- none of the three arrays
  exact W4_of_ne m ρ c b (fun w => match w with
    | ⟨0, _⟩ => fun e => h0 e.symm
    | ⟨1, _⟩ => fun e => h1 e.symm
    | ⟨2, _⟩ => fun e => hb e.symm)

theorem keep6 (c : Dev nD) (b : Ref sig .tc) (hb : b ≠ main_v44) :
    W6 m ρ c (Proc.devRef .tc b) = W5 m ρ c (Proc.devRef .tc b) := by
  -- the region's first input array: read through its window, which is an input's and so never written
  by_cases h0 : b = main_v43
  · subst h0
    exact (W6_arr m ρ c 0).trans (((dat1 (V5 m ρ) c).arrAt_in 0 rfl _).trans (A_eq1 (V5 m ρ) c 0))
  -- the region's second input array: the same
  by_cases h1 : b = main_v35
  · subst h1
    exact (W6_arr m ρ c 1).trans (((dat1 (V5 m ρ) c).arrAt_in 1 rfl _).trans (A_eq1 (V5 m ρ) c 1))
  -- none of the three arrays
  exact W6_of_ne m ρ c b (fun w => match w with
    | ⟨0, _⟩ => fun e => h0 e.symm
    | ⟨1, _⟩ => fun e => h1 e.symm
    | ⟨2, _⟩ => fun e => hb e.symm)

theorem keep8 (c : Dev nD) (b : Ref sig .tc) (hb : b ≠ main_v49) :
    W8 m ρ c (Proc.devRef .tc b) = W7 m ρ c (Proc.devRef .tc b) := by
  -- the region's first input array: read through its window, which is an input's and so never written
  by_cases h0 : b = main_v47
  · subst h0
    exact (W8_arr m ρ c 0).trans (((dat2 (V7 m ρ) c).arrAt_in 0 rfl _).trans (A_eq2 (V7 m ρ) c 0))
  -- the region's second input array: the same
  by_cases h1 : b = main_v48
  · subst h1
    exact (W8_arr m ρ c 1).trans (((dat2 (V7 m ρ) c).arrAt_in 1 rfl _).trans (A_eq2 (V7 m ρ) c 1))
  -- none of the three arrays
  exact W8_of_ne m ρ c b (fun w => match w with
    | ⟨0, _⟩ => fun e => h0 e.symm
    | ⟨1, _⟩ => fun e => h1 e.symm
    | ⟨2, _⟩ => fun e => hb e.symm)

theorem keep9 (c : Dev nD) (b : Ref sig .tc) (hb : b ≠ main_v50) :
    W9 m ρ c (Proc.devRef .tc b) = W8 m ρ c (Proc.devRef .tc b) := by
  -- the region's first input array: read through its window, which is an input's and so never written
  by_cases h0 : b = main_v49
  · subst h0
    exact (W9_arr m ρ c 0).trans (((dat3 (V8 m ρ) c).arrAt_in 0 rfl _).trans (A_eq3 (V8 m ρ) c 0))
  -- the region's second input array: the same
  by_cases h1 : b = main_arg4
  · subst h1
    exact (W9_arr m ρ c 1).trans (((dat3 (V8 m ρ) c).arrAt_in 1 rfl _).trans (A_eq3 (V8 m ρ) c 1))
  -- none of the three arrays
  exact W9_of_ne m ρ c b (fun w => match w with
    | ⟨0, _⟩ => fun e => h0 e.symm
    | ⟨1, _⟩ => fun e => h1 e.symm
    | ⟨2, _⟩ => fun e => hb e.symm)

theorem keep11 (c : Dev nD) (b : Ref sig .tc) (hb : b ≠ main_v58) :
    W11 m ρ c (Proc.devRef .tc b) = W10 m ρ c (Proc.devRef .tc b) := by
  -- the region's first input array: read through its window, which is an input's and so never written
  by_cases h0 : b = main_v57
  · subst h0
    exact (W11_arr m ρ c 0).trans (((dat4 (V10 m ρ) c).arrAt_in 0 rfl _).trans (A_eq4 (V10 m ρ) c 0))
  -- the region's second input array: the same
  by_cases h1 : b = main_v35
  · subst h1
    exact (W11_arr m ρ c 1).trans (((dat4 (V10 m ρ) c).arrAt_in 1 rfl _).trans (A_eq4 (V10 m ρ) c 1))
  -- none of the three arrays
  exact W11_of_ne m ρ c b (fun w => match w with
    | ⟨0, _⟩ => fun e => h0 e.symm
    | ⟨1, _⟩ => fun e => h1 e.symm
    | ⟨2, _⟩ => fun e => hb e.symm)

theorem keep13 (c : Dev nD) (b : Ref sig .tc) (hb : b ≠ main_v63) :
    W13 m ρ c (Proc.devRef .tc b) = W12 m ρ c (Proc.devRef .tc b) := by
  -- the region's first input array: read through its window, which is an input's and so never written
  by_cases h0 : b = main_v61
  · subst h0
    exact (W13_arr m ρ c 0).trans (((dat5 (V12 m ρ) c).arrAt_in 0 rfl _).trans (A_eq5 (V12 m ρ) c 0))
  -- the region's second input array: the same
  by_cases h1 : b = main_v62
  · subst h1
    exact (W13_arr m ρ c 1).trans (((dat5 (V12 m ρ) c).arrAt_in 1 rfl _).trans (A_eq5 (V12 m ρ) c 1))
  -- none of the three arrays
  exact W13_of_ne m ρ c b (fun w => match w with
    | ⟨0, _⟩ => fun e => h0 e.symm
    | ⟨1, _⟩ => fun e => h1 e.symm
    | ⟨2, _⟩ => fun e => hb e.symm)

/-! ## A stretch of host operations leaves every buffer it does not write as it found it

Each operation of a stretch writes exactly one buffer, its result; the list in each statement holds the stretch's result
buffers in order, so a buffer outside the list is written by no operation of the stretch. -/
/-- A reference of a list, as a device buffer, is among the list's device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem keep1 (c : Dev nD) (b : Ref sig .tc) (hb : b ∉ ([main_v0, main_v1, main_v2, main_v3, main_v4, main_v5, main_v6, main_cst, main_v7, main_cst_0, main_v8, main_v9, main_v10, main_cst_1, main_v11, main_v12, main_v13, main_cst_2] : List (Ref sig .tc))) :
    W1 m ρ c (Proc.devRef .tc b) = W0 m ρ c (Proc.devRef .tc b) := by
  refine StableHlo.after_of_writes_sub hostOps0 (W0 m ρ c) ?_ hb
  -- each operation's written set is the singleton of its result, and that result is in the list
  simp only [hostOps0, List.Forall, StableHlo.nullary_writes, StableHlo.unary_writes, StableHlo.binary_writes,
    StableHlo.ternary_writes, StableHlo.reshape_writes]
  repeat' apply And.intro
  all_goals exact single_sub (by decide)

theorem keep2 (c : Dev nD) (b : Ref sig .tc) (hb : b ∉ ([main_call0_v0, main_call0_v1, main_v14] : List (Ref sig .tc))) :
    W2 m ρ c (Proc.devRef .tc b) = W1 m ρ c (Proc.devRef .tc b) := by
  refine StableHlo.after_of_writes_sub hostOps0_1 (W1 m ρ c) ?_ hb
  -- each operation's written set is the singleton of its result, and that result is in the list
  simp only [hostOps0_1, List.Forall, StableHlo.nullary_writes, StableHlo.unary_writes, StableHlo.binary_writes,
    StableHlo.ternary_writes, StableHlo.reshape_writes]
  repeat' apply And.intro
  all_goals exact single_sub (by decide)

theorem keep3 (c : Dev nD) (b : Ref sig .tc) (hb : b ∉ ([main_c, main_v15, main_v16, main_c_3, main_v17, main_v18, main_v19, main_v20, main_v21, main_c_4, main_v22, main_v23, main_c_5, main_v24, main_v25, main_v26, main_v27, main_v28, main_v29, main_c_6, main_v30, main_cst_7, main_v31, main_v32, main_v33, main_v34, main_v35] : List (Ref sig .tc))) :
    W3 m ρ c (Proc.devRef .tc b) = W2 m ρ c (Proc.devRef .tc b) := by
  refine StableHlo.after_of_writes_sub hostOps0_2 (W2 m ρ c) ?_ hb
  -- each operation's written set is the singleton of its result, and that result is in the list
  simp only [hostOps0_2, List.Forall, StableHlo.nullary_writes, StableHlo.unary_writes, StableHlo.binary_writes,
    StableHlo.ternary_writes, StableHlo.reshape_writes]
  repeat' apply And.intro
  all_goals exact single_sub (by decide)

theorem keep5 (c : Dev nD) (b : Ref sig .tc) (hb : b ∉ ([main_c_8, main_v37, main_v38, main_c_9, main_v39, main_v40, main_v41, main_v42, main_v43] : List (Ref sig .tc))) :
    W5 m ρ c (Proc.devRef .tc b) = W4 m ρ c (Proc.devRef .tc b) := by
  refine StableHlo.after_of_writes_sub hostOps1 (W4 m ρ c) ?_ hb
  -- each operation's written set is the singleton of its result, and that result is in the list
  simp only [hostOps1, List.Forall, StableHlo.nullary_writes, StableHlo.unary_writes, StableHlo.binary_writes,
    StableHlo.ternary_writes, StableHlo.reshape_writes]
  repeat' apply And.intro
  all_goals exact single_sub (by decide)

theorem keep7 (c : Dev nD) (b : Ref sig .tc) (hb : b ∉ ([main_cst_10, main_v45, main_v46, main_v47, main_v48] : List (Ref sig .tc))) :
    W7 m ρ c (Proc.devRef .tc b) = W6 m ρ c (Proc.devRef .tc b) := by
  refine StableHlo.after_of_writes_sub hostOps2 (W6 m ρ c) ?_ hb
  -- each operation's written set is the singleton of its result, and that result is in the list
  simp only [hostOps2, List.Forall, StableHlo.nullary_writes, StableHlo.unary_writes, StableHlo.binary_writes,
    StableHlo.ternary_writes, StableHlo.reshape_writes]
  repeat' apply And.intro
  all_goals exact single_sub (by decide)

theorem keep10 (c : Dev nD) (b : Ref sig .tc) (hb : b ∉ ([main_c_11, main_v51, main_v52, main_c_12, main_v53, main_v54, main_v55, main_v56, main_v57] : List (Ref sig .tc))) :
    W10 m ρ c (Proc.devRef .tc b) = W9 m ρ c (Proc.devRef .tc b) := by
  refine StableHlo.after_of_writes_sub hostOps4 (W9 m ρ c) ?_ hb
  -- each operation's written set is the singleton of its result, and that result is in the list
  simp only [hostOps4, List.Forall, StableHlo.nullary_writes, StableHlo.unary_writes, StableHlo.binary_writes,
    StableHlo.ternary_writes, StableHlo.reshape_writes]
  repeat' apply And.intro
  all_goals exact single_sub (by decide)

theorem keep12 (c : Dev nD) (b : Ref sig .tc) (hb : b ∉ ([main_cst_13, main_v59, main_v60, main_v61, main_v62] : List (Ref sig .tc))) :
    W12 m ρ c (Proc.devRef .tc b) = W11 m ρ c (Proc.devRef .tc b) := by
  refine StableHlo.after_of_writes_sub hostOps5 (W11 m ρ c) ?_ hb
  -- each operation's written set is the singleton of its result, and that result is in the list
  simp only [hostOps5, List.Forall, StableHlo.nullary_writes, StableHlo.unary_writes, StableHlo.binary_writes,
    StableHlo.ternary_writes, StableHlo.reshape_writes]
  repeat' apply And.intro
  all_goals exact single_sub (by decide)

/-! ## What the stretches between the regions write

Each fact unfolds the stretch one operation at a time: an operation's result buffer holds its function applied to its
operands' contents, and every other buffer holds what it held before the operation; an operand written earlier in the
same stretch unfolds the same way, down to contents at the boundary before the stretch. -/
/-- The first layer's gather column: the padded source numbers, a negative one moved up by the table's height. -/
theorem read_v42 (c : Dev nD) :
    W5 m ρ c (Proc.devRef .tc main_v42) = broadcastInDim S851968x1 ![0] bcast_S851968_S851968x1_0 (select (cmpi .slt (W4 m ρ c (Proc.devRef .tc main_v32)) (broadcastInDim S851968 ![] bcast_S_S851968 (constantI S_ 32 0#32))) (addi (W4 m ρ c (Proc.devRef .tc main_v32)) (broadcastInDim S851968 ![] bcast_S_S851968 (constantI S_ 32 50000#32))) (W4 m ρ c (Proc.devRef .tc main_v32))) := by
  show StableHlo.after hostOps1 (W4 m ρ c) (Proc.devRef .tc main_v42) = _
  after_results

/-- The first layer's gathered rows. -/
theorem read_v43 (c : Dev nD) :
    W5 m ρ c (Proc.devRef .tc main_v43) = Host.gather gather_S50000x128_S851968x1_S851968x128_1_0_n_n_0_1_1128 (W4 m ρ c (Proc.devRef .tc main_v36)) (W5 m ρ c (Proc.devRef .tc main_v42)) := by
  show StableHlo.after hostOps1 (W4 m ρ c) (Proc.devRef .tc main_v43) = Host.gather _ _ (StableHlo.after hostOps1 (W4 m ρ c) (Proc.devRef .tc main_v42))
  after_results_simp

/-- The first layer's scatter column: the padded target numbers. -/
theorem read_v46 (c : Dev nD) :
    W7 m ρ c (Proc.devRef .tc main_v46) = broadcastInDim S851968x1 ![0] bcast_S851968_S851968x1_0 (W6 m ρ c (Proc.devRef .tc main_v33)) := by
  show StableHlo.after hostOps2 (W6 m ρ c) (Proc.devRef .tc main_v46) = _
  after_results

/-- The first layer's aggregate: the scaled rows added into a zero table at their target rows. -/
theorem read_v47 (c : Dev nD) :
    W7 m ρ c (Proc.devRef .tc main_v47) = Host.scatterAdd scatter_S50000x128_S851968x1_S851968x128_1_0_0_1 (broadcastInDim S50000x128 ![] bcast_S_S50000x128 (constant S_ .f32 0x00000000#32)) (W7 m ρ c (Proc.devRef .tc main_v46)) (W6 m ρ c (Proc.devRef .tc main_v44)) := by
  show StableHlo.after hostOps2 (W6 m ρ c) (Proc.devRef .tc main_v47) = Host.scatterAdd _ _ (StableHlo.after hostOps2 (W6 m ρ c) (Proc.devRef .tc main_v46)) _
  after_results

/-- The first bias as a one-row table. -/
theorem read_v48 (c : Dev nD) :
    W7 m ρ c (Proc.devRef .tc main_v48) = shapeCast S1x128 (W6 m ρ c (Proc.devRef .tc main_arg3)) shapeCasts_S128_S1x128 := by
  show StableHlo.after hostOps2 (W6 m ρ c) (Proc.devRef .tc main_v48) = _
  after_results
  rfl

/-- The second layer's gather column. -/
theorem read_v56 (c : Dev nD) :
    W10 m ρ c (Proc.devRef .tc main_v56) = broadcastInDim S851968x1 ![0] bcast_S851968_S851968x1_0 (select (cmpi .slt (W9 m ρ c (Proc.devRef .tc main_v32)) (broadcastInDim S851968 ![] bcast_S_S851968 (constantI S_ 32 0#32))) (addi (W9 m ρ c (Proc.devRef .tc main_v32)) (broadcastInDim S851968 ![] bcast_S_S851968 (constantI S_ 32 50000#32))) (W9 m ρ c (Proc.devRef .tc main_v32))) := by
  show StableHlo.after hostOps4 (W9 m ρ c) (Proc.devRef .tc main_v56) = _
  after_results

/-- The second layer's gathered rows. -/
theorem read_v57 (c : Dev nD) :
    W10 m ρ c (Proc.devRef .tc main_v57) = Host.gather gather_S50000x64_S851968x1_S851968x64_1_0_n_n_0_1_164 (W9 m ρ c (Proc.devRef .tc main_v50)) (W10 m ρ c (Proc.devRef .tc main_v56)) := by
  show StableHlo.after hostOps4 (W9 m ρ c) (Proc.devRef .tc main_v57) = Host.gather _ _ (StableHlo.after hostOps4 (W9 m ρ c) (Proc.devRef .tc main_v56))
  after_results_simp

/-- The second layer's scatter column. -/
theorem read_v60 (c : Dev nD) :
    W12 m ρ c (Proc.devRef .tc main_v60) = broadcastInDim S851968x1 ![0] bcast_S851968_S851968x1_0 (W11 m ρ c (Proc.devRef .tc main_v33)) := by
  show StableHlo.after hostOps5 (W11 m ρ c) (Proc.devRef .tc main_v60) = _
  after_results

/-- The second layer's aggregate. -/
theorem read_v61 (c : Dev nD) :
    W12 m ρ c (Proc.devRef .tc main_v61) = Host.scatterAdd scatter_S50000x64_S851968x1_S851968x64_1_0_0_1 (broadcastInDim S50000x64 ![] bcast_S_S50000x64 (constant S_ .f32 0x00000000#32)) (W12 m ρ c (Proc.devRef .tc main_v60)) (W11 m ρ c (Proc.devRef .tc main_v58)) := by
  show StableHlo.after hostOps5 (W11 m ρ c) (Proc.devRef .tc main_v61) = Host.scatterAdd _ _ (StableHlo.after hostOps5 (W11 m ρ c) (Proc.devRef .tc main_v60)) _
  after_results

/-- The second bias as a one-row table. -/
theorem read_v62 (c : Dev nD) :
    W12 m ρ c (Proc.devRef .tc main_v62) = shapeCast S1x64 (W11 m ρ c (Proc.devRef .tc main_arg5)) shapeCasts_S64_S1x64 := by
  show StableHlo.after hostOps5 (W11 m ρ c) (Proc.devRef .tc main_v62) = _
  after_results
  rfl

end Cert.KernelIdeal.HostV

end
-- ==== Proof.KernelFold.lean ====
/-
  THE KERNEL'S RESULT, READ BACK THROUGH ITS PROGRAM TO THE ARGUMENTS.

  The program is two layers of the same five steps. A layer's input table `t` (the node features, then the first layer's
  output) is multiplied by the layer's weights in a kernel region; a host gather takes, for every edge of the PADDED edge
  list, the product's row the edge's source number names (clamped); a kernel region scales each gathered row by the edge's
  weight; a host scatter-add adds each scaled row into a zero table at the row the edge's target number names; a kernel
  region adds the bias (and, in the first layer, takes the positive part). Reading the last boundary's contents of the result
  buffer back through these ten steps gives `outAt` of the launched arguments, with the padded gather and scatter columns
  and the padded weight column as the program's own buffers hold them.
-/
import proofs.«169315_j54537494724630_1_alg».proof.Proof.Gen.KernelIdeal.Frame
import proofs.«169315_j54537494724630_1_alg».proof.Proof.Spec
import proofs.«169315_j54537494724630_1_alg».proof.Proof.LibGatherScatter
import proofs.«169315_j54537494724630_1_alg».proof.Proof.RegMM
import proofs.«169315_j54537494724630_1_alg».proof.Proof.RegScale
import proofs.«169315_j54537494724630_1_alg».proof.Proof.RegBias
import proofs.«169315_j54537494724630_1_alg».proof.Proof.KernelHost
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Fold

open Idealize.ShloMosaic Idealize.ShloMosaic.TcCoe Idealize.ShloMosaic.ValueIdx Idealize.SL.Sem
open Cert.KernelIdeal Cert.KernelIdeal.Gen Cert.Bridge Cert.KernelIdeal.Reg Cert.KernelIdeal.HostV

variable (m : (ℓ : Loc nD τ sig) → Buf (Elt Ideal) ℓ) (ρ : Dev nD → PrngReg)

/-! ## The buffers the result depends on, by name and literal type -/

/-- The node features, the two weight arrays and the two bias vectors, as launched. -/
abbrev xA (c : Dev nD) : Tab 50000 128 := m ((c.tc : Thread nD τ).loc main_arg0)
abbrev w1A (c : Dev nD) : Tab 128 128 := m ((c.tc : Thread nD τ).loc main_arg2)
abbrev b1A (c : Dev nD) : Row 128 := m ((c.tc : Thread nD τ).loc main_arg3)
abbrev w2A (c : Dev nD) : Tab 128 64 := m ((c.tc : Thread nD τ).loc main_arg4)
abbrev b2A (c : Dev nD) : Row 64 := m ((c.tc : Thread nD τ).loc main_arg5)
/-- The padded weight column (written before the first region, read by both scaling regions). -/
abbrev nrmK (c : Dev nD) : Tab 851968 1 := W3 m ρ c (Proc.devRef .tc main_v35)
/-- Each layer's padded gather column and scatter column. -/
abbrev g1K (c : Dev nD) : ICol 851968 := W5 m ρ c (Proc.devRef .tc main_v42)
abbrev d1K (c : Dev nD) : ICol 851968 := W7 m ρ c (Proc.devRef .tc main_v46)
abbrev g2K (c : Dev nD) : ICol 851968 := W10 m ρ c (Proc.devRef .tc main_v56)
abbrev d2K (c : Dev nD) : ICol 851968 := W12 m ρ c (Proc.devRef .tc main_v60)
/-- The padded weight of edge `e`. -/
abbrev sK (c : Dev nD) : Fin 851968 → EReal := fun e => at2 (nrmK m ρ c) e 0

/-! ## Buffers nothing writes after the first region's entry -/

/-- An argument array holds its launched contents at the first region's entry: no host operation writes it. -/
theorem arg_at3 (c : Dev nD) (b : Ref sig .tc)
    (h1 : b ∉ ([main_v0, main_v1, main_v2, main_v3, main_v4, main_v5, main_v6, main_cst, main_v7, main_cst_0, main_v8, main_v9, main_v10, main_cst_1, main_v11, main_v12, main_v13, main_cst_2] : List (Ref sig .tc)))
    (h2 : b ∉ ([main_call0_v0, main_call0_v1, main_v14] : List (Ref sig .tc)))
    (h3 : b ∉ ([main_c, main_v15, main_v16, main_c_3, main_v17, main_v18, main_v19, main_v20, main_v21, main_c_4, main_v22, main_v23, main_c_5, main_v24, main_v25, main_v26, main_v27, main_v28, main_v29, main_c_6, main_v30, main_cst_7, main_v31, main_v32, main_v33, main_v34, main_v35] : List (Ref sig .tc))) :
    W3 m ρ c (Proc.devRef .tc b) = m ((c.tc : Thread nD τ).loc b) :=
  (keep3 m ρ c b h3).trans ((keep2 m ρ c b h2).trans ((keep1 m ρ c b h1).trans rfl))

theorem arg0_at3 (c : Dev nD) : W3 m ρ c (Proc.devRef .tc main_arg0) = m ((c.tc : Thread nD τ).loc main_arg0) :=
  arg_at3 m ρ c main_arg0 (by decide) (by decide) (by decide)
theorem arg2_at3 (c : Dev nD) : W3 m ρ c (Proc.devRef .tc main_arg2) = m ((c.tc : Thread nD τ).loc main_arg2) :=
  arg_at3 m ρ c main_arg2 (by decide) (by decide) (by decide)
theorem arg3_at6 (c : Dev nD) : W6 m ρ c (Proc.devRef .tc main_arg3) = m ((c.tc : Thread nD τ).loc main_arg3) :=
  (keep6 m ρ c main_arg3 (by decide)).trans ((keep5 m ρ c main_arg3 (by decide)).trans ((keep4 m ρ c main_arg3 (by decide)).trans
    (arg_at3 m ρ c main_arg3 (by decide) (by decide) (by decide))))
theorem arg4_at8 (c : Dev nD) : W8 m ρ c (Proc.devRef .tc main_arg4) = m ((c.tc : Thread nD τ).loc main_arg4) :=
  (keep8 m ρ c main_arg4 (by decide)).trans ((keep7 m ρ c main_arg4 (by decide)).trans ((keep6 m ρ c main_arg4 (by decide)).trans
    ((keep5 m ρ c main_arg4 (by decide)).trans ((keep4 m ρ c main_arg4 (by decide)).trans
      (arg_at3 m ρ c main_arg4 (by decide) (by decide) (by decide))))))
theorem arg5_at11 (c : Dev nD) : W11 m ρ c (Proc.devRef .tc main_arg5) = m ((c.tc : Thread nD τ).loc main_arg5) :=
  (keep11 m ρ c main_arg5 (by decide)).trans ((keep10 m ρ c main_arg5 (by decide)).trans ((keep9 m ρ c main_arg5 (by decide)).trans
    ((keep8 m ρ c main_arg5 (by decide)).trans ((keep7 m ρ c main_arg5 (by decide)).trans ((keep6 m ρ c main_arg5 (by decide)).trans
      ((keep5 m ρ c main_arg5 (by decide)).trans ((keep4 m ρ c main_arg5 (by decide)).trans
        (arg_at3 m ρ c main_arg5 (by decide) (by decide) (by decide)))))))))
/-- The padded weight column is still what the prefix wrote when each scaling region reads it. -/
theorem nrm_at5 (c : Dev nD) : W5 m ρ c (Proc.devRef .tc main_v35) = W3 m ρ c (Proc.devRef .tc main_v35) :=
  (keep5 m ρ c main_v35 (by decide)).trans (keep4 m ρ c main_v35 (by decide))
theorem nrm_at10 (c : Dev nD) : W10 m ρ c (Proc.devRef .tc main_v35) = W3 m ρ c (Proc.devRef .tc main_v35) :=
  (keep10 m ρ c main_v35 (by decide)).trans ((keep9 m ρ c main_v35 (by decide)).trans ((keep8 m ρ c main_v35 (by decide)).trans
    ((keep7 m ρ c main_v35 (by decide)).trans ((keep6 m ρ c main_v35 (by decide)).trans (nrm_at5 m ρ c)))))

/-! ## The five steps of a layer, over any tables

The program's buffers enter the facts below only as NAMES of tables: each fact takes the equations that say what a buffer
holds (a scatter-add of a zero table, a gather, a region's output read element by element) as hypotheses over arbitrary
tables and concludes by rewriting with them. Nothing here looks inside a buffer's contents. -/

/-- A table's element by its two coordinates, as an equation. -/
theorem at2_eq {N W : Nat} (x : Tab N W) (n : Fin N) (j : Fin W) : at2 x n j = x (ix2 n j) := rfl

/-- ONE PROPAGATION STEP. If `T` is the scatter-add, at the target column `d`, of the update rows `U` into a table `Z` of
    zeros; every update row is the row of `G` scaled by the entry of the one-column table `S`; `G` is the gather of the
    table `h` at the source column `g`; and `S` is the weight column `nrm`: then `T` at (n, j) is what node `n` receives in
    column `j` from `h` over the edges, each weighted by its entry of `nrm`. -/
theorem agg_of {W : Nat}
    (ds : ScatterDims ⟨2, ![50000, W]⟩ ⟨2, ![851968, 1]⟩ ⟨2, ![851968, W]⟩)
    (huw : ds.updateWindowDims = [1]) (hiw : ds.insertedWindowDims = [0]) (hsd : ds.scatterDimsToOperandDims = [0])
    (hivd : ds.indexVectorDim = 1)
    (dg : GatherDims ⟨2, ![50000, W]⟩ ⟨2, ![851968, 1]⟩ ⟨2, ![851968, W]⟩)
    (hoff : dg.offsetDims = [1]) (hcoll : dg.collapsedSliceDims = [0]) (hob : dg.operandBatchingDims = [])
    (hsim : dg.startIndexMap = [0]) (hivd' : dg.indexVectorDim = 1)
    (T Z : Tab 50000 W) (d : ICol 851968) (U G : Tab 851968 W) (S nrm : Tab 851968 1) (h : Tab 50000 W) (g : ICol 851968)
    (hT : T = Host.scatterAdd (F := Ideal) (φ := .f32) ds Z d U) (hZ : ∀ i, Z i = 0)
    (hU : ∀ e j, U (ix2 e j) = scaleAt G S e j)
    (hG : G = Host.gather dg h g) (hS : S = nrm) (n : Fin 50000) (j : Fin W) :
    at2 T n j = aggAt h g d (fun e => at2 nrm e 0) n j := by
  subst hT hG hS
  rw [at2_eq, aggAt, GS.scatterAdd_apply ds huw hiw hsd hivd Z d U n j, hZ]
  refine congrArg (fun t => (0 : EReal) + t) (Finset.sum_congr rfl fun e _ => ?_)
  rw [hU e j, scaleAt, GS.gather_apply (by decide) dg hoff hcoll hob hsim hivd' h g e j]
  rfl

/-- A BIAS ROW. A one-row table that is the reshape of a vector reads, in its only row, the vector. -/
theorem bias_row {W : Nat} (B : Tab 1 W) (v b : Row W) (hn : (⟨1, ![W]⟩ : Shape).ShapeCasts ⟨2, ![1, W]⟩)
    (hB : B = shapeCast ⟨2, ![1, W]⟩ v hn) (hv : v = b) (j : Fin W) : B (ix2 0 j) = b (ix1 j) := by
  subst hB hv
  refine shapeCast_apply _ _ (ix2 0 j) (ix1 j) ?_
  rw [Shape.rowMajor_val_one, Shape.rowMajor_val_two]
  show j.val = 0 * W + j.val
  omega

/-- THE FIRST LAYER from its five steps: the output array `O` is what the bias region leaves (`R`), that is the positive
    part of the aggregate `Q` plus the bias row `B`; the aggregate is the propagation of the product `P = x · w1`. -/
theorem hid_of {E : Nat} (O R Q P : Tab 50000 128) (B : Tab 1 128) (b : Row 128) (x : Tab 50000 128) (w1 : Tab 128 128)
    (g d : ICol E) (s : Fin E → EReal)
    (hO : O = R) (hR : ∀ n j, at2 R n j = biasReluAt Q B n j)
    (hP : P = tab2 (mmAt x w1)) (hQ : ∀ n j, at2 Q n j = aggAt P g d s n j)
    (hB : ∀ j, B (ix2 0 j) = b (ix1 j)) :
    O = Cert.Bridge.hidden x w1 b g d s := by
  subst hO hP
  funext i
  obtain ⟨n, j, rfl⟩ : ∃ (n : Fin 50000) (j : Fin 128), i = ix2 n j := ⟨i 0, i 1, eq_ix2 i⟩
  rw [Cert.Bridge.hidden, tab2_apply, ← hQ n j, ← at2_eq O n j, hR n j, biasReluAt, at2_eq, hB j]

/-- THE SECOND LAYER from its five steps, at (n, j): no positive part. -/
theorem out_of {E : Nat} (O R Q P : Tab 50000 64) (B : Tab 1 64) (b : Row 64) (H : Tab 50000 128) (w2 : Tab 128 64)
    (g d : ICol E) (s : Fin E → EReal)
    (hO : O = R) (hR : ∀ n j, at2 R n j = biasAt Q B n j)
    (hP : P = tab2 (mmAt H w2)) (hQ : ∀ n j, at2 Q n j = aggAt P g d s n j)
    (hB : ∀ j, B (ix2 0 j) = b (ix1 j)) (n : Fin 50000) (j : Fin 64) :
    at2 O n j = aggAt (tab2 (mmAt H w2)) g d s n j + b (ix1 j) := by
  subst hO hP
  rw [hR n j, biasAt, ← at2_eq Q n j, hQ n j, hB j]

/-! ## One layer: product, gather, scale, scatter-add -/

/-- A zero table (the scatter-add's operand) reads zero. -/
theorem zeros_apply {S : Shape} (h : (⟨0, ![]⟩ : Shape).BroadcastsInDim S ![]) (i : S.Idx) :
    broadcastInDim S ![] h (constant (F := Ideal) (⟨0, ![]⟩ : Shape) .f32 0x00000000#32) i = (0 : EReal) := by
  show Ideal.ofBits .f32 0x00000000#32 = 0
  exact Ideal.ofBits_zero_f32

/-- THE FIRST PRODUCT: the first region's output array is `x · w1`. -/
theorem prod1 (c : Dev nD) : (W4 m ρ c (Proc.devRef .tc main_v36) : Tab 50000 128) = tab2 (mmAt (xA m c) (w1A m c)) := by
  funext i
  obtain ⟨n, k, rfl⟩ : ∃ (n : Fin 50000) (k : Fin 128), i = ix2 n k := ⟨i 0, i 1, eq_ix2 i⟩
  rw [tab2_apply]
  have e0 : (V3 m ρ c (Pipeline.arrRef spec0 0) : Tab 50000 128) = xA m c := arg0_at3 m ρ c
  have e1 : (V3 m ρ c (Pipeline.arrRef spec0 1) : Tab 128 128) = w1A m c := arg2_at3 m ρ c
  calc (W4 m ρ c (Proc.devRef .tc main_v36) : Tab 50000 128) (ix2 n k)
      = at2 ((dat0 (F := Ideal) (V3 m ρ) c).arrAt 2 cfg0.N) n k := congrFun (W4_arr m ρ c 2) (ix2 n k)
    _ = mmAt (V3 m ρ c (Pipeline.arrRef spec0 0)) (V3 m ρ c (Pipeline.arrRef spec0 1)) n k := reg0_apply (V3 m ρ) c n k
    _ = mmAt (xA m c) (w1A m c) n k := by rw [e0, e1]

/-- THE FIRST AGGREGATE: the scatter-add's result at (n, j) is what node `n` receives in column `j` over the padded edges. -/
theorem agg1 (c : Dev nD) (n : Fin 50000) (j : Fin 128) :
    at2 (W7 m ρ c (Proc.devRef .tc main_v47)) n j
      = aggAt (W4 m ρ c (Proc.devRef .tc main_v36)) (g1K m ρ c) (d1K m ρ c) (sK m ρ c) n j := by
  -- the scatter-add of the scaled gathered rows into a zero table, read through the step over arbitrary tables
  exact agg_of scatter_S50000x128_S851968x1_S851968x128_1_0_0_1 rfl rfl rfl rfl
    gather_S50000x128_S851968x1_S851968x128_1_0_n_n_0_1_1128 rfl rfl rfl rfl rfl
    _ _ _ _ _ _ _ _ _
    (read_v47 m ρ c) (fun i => zeros_apply _ i)
    (fun e j => (congrFun (W6_arr m ρ c 2) (ix2 e j)).trans ((at2_eq _ e j).symm.trans (reg1_apply (V5 m ρ) c e j)))
    (read_v43 m ρ c) (nrm_at5 m ρ c) n j

/-- THE FIRST LAYER'S OUTPUT: the bias region's output array is `hidden` of the launched arguments. -/
theorem hid (c : Dev nD) :
    (W8 m ρ c (Proc.devRef .tc main_v49) : Tab 50000 128)
      = hidden (xA m c) (w1A m c) (b1A m c) (g1K m ρ c) (d1K m ρ c) (sK m ρ c) := by
  -- the bias region's output over the first aggregate, the first product and the reshaped first bias
  exact hid_of _ _ _ _ _ _ _ _ _ _ _ (W8_arr m ρ c 2) (reg2_apply (V7 m ρ) c) (prod1 m ρ c) (agg1 m ρ c)
    (fun j => bias_row _ _ _ _ (read_v48 m ρ c) (arg3_at6 m ρ c) j)

/-- THE SECOND PRODUCT: the fourth region's output array is the first layer's output times `w2`. -/
theorem prod2 (c : Dev nD) :
    (W9 m ρ c (Proc.devRef .tc main_v50) : Tab 50000 64)
      = tab2 (mmAt (hidden (xA m c) (w1A m c) (b1A m c) (g1K m ρ c) (d1K m ρ c) (sK m ρ c)) (w2A m c)) := by
  funext i
  obtain ⟨n, k, rfl⟩ : ∃ (n : Fin 50000) (k : Fin 64), i = ix2 n k := ⟨i 0, i 1, eq_ix2 i⟩
  rw [tab2_apply]
  have e0 : (V8 m ρ c (Pipeline.arrRef spec3 0) : Tab 50000 128) = _ := hid m ρ c
  have e1 : (V8 m ρ c (Pipeline.arrRef spec3 1) : Tab 128 64) = w2A m c := arg4_at8 m ρ c
  calc (W9 m ρ c (Proc.devRef .tc main_v50) : Tab 50000 64) (ix2 n k)
      = at2 ((dat3 (F := Ideal) (V8 m ρ) c).arrAt 2 cfg3.N) n k := congrFun (W9_arr m ρ c 2) (ix2 n k)
    _ = mmAt (V8 m ρ c (Pipeline.arrRef spec3 0)) (V8 m ρ c (Pipeline.arrRef spec3 1)) n k := reg3_apply (V8 m ρ) c n k
    _ = _ := by rw [e0, e1]

/-- THE SECOND AGGREGATE. -/
theorem agg2 (c : Dev nD) (n : Fin 50000) (j : Fin 64) :
    at2 (W12 m ρ c (Proc.devRef .tc main_v61)) n j
      = aggAt (W9 m ρ c (Proc.devRef .tc main_v50)) (g2K m ρ c) (d2K m ρ c) (sK m ρ c) n j := by
  exact agg_of scatter_S50000x64_S851968x1_S851968x64_1_0_0_1 rfl rfl rfl rfl
    gather_S50000x64_S851968x1_S851968x64_1_0_n_n_0_1_164 rfl rfl rfl rfl rfl
    _ _ _ _ _ _ _ _ _
    (read_v61 m ρ c) (fun i => zeros_apply _ i)
    (fun e j => (congrFun (W11_arr m ρ c 2) (ix2 e j)).trans ((at2_eq _ e j).symm.trans (reg4_apply (V10 m ρ) c e j)))
    (read_v57 m ρ c) (nrm_at10 m ρ c) n j

/-! ## The result -/

/-- THE KERNEL'S RESULT at node `n`, column `j`: the network's output over the PADDED edge columns. -/
theorem kernel_value (c : Dev nD) (n : Fin 50000) (j : Fin 64) :
    at2 (W13 m ρ c (Proc.devRef .tc main_v63)) n j
      = outAt (xA m c) (w1A m c) (b1A m c) (w2A m c) (b2A m c) (g1K m ρ c) (d1K m ρ c) (sK m ρ c)
          (g2K m ρ c) (d2K m ρ c) (sK m ρ c) n j := by
  rw [Cert.Bridge.outAt]
  -- the last bias region's output over the second aggregate, the second product and the reshaped second bias
  exact out_of _ _ _ _ _ _ _ _ _ _ _ (W13_arr m ρ c 2) (reg5_apply (V12 m ρ) c) (prod2 m ρ c) (agg2 m ρ c)
    (fun j => bias_row _ _ _ _ (read_v62 m ρ c) (arg5_at11 m ρ c) j) n j

end Cert.KernelIdeal.Fold

end
-- ==== Proof.SpecIdx.lean ====
/-
  INTEGER COLUMNS READ AT AN EDGE, AND THE ROW-NUMBER NORMALISATION.

  An indexing expression `t[r]` with a signed row number `r` first moves a negative `r` up by the table's height
  (50000 here): `normRow`. The gather columns of both programs are this function applied, edge by edge, to the source numbers.
-/
import Idealize.ShloMosaic.PureOps.Ideal
import Idealize.ShloMosaic.Lib.ValueIdx

noncomputable section

namespace Cert.Bridge

open Idealize.ShloMosaic Idealize.ShloMosaic.ValueIdx

/-- A vector of `E` integer words. -/
abbrev IRow (E : Nat) : Type := (⟨1, ![E]⟩ : Shape).Idx → BitVec 32

/-- A word vector's entry `e`. -/
def iat1 {E : Nat} (v : IRow E) (e : Fin E) : BitVec 32 := v (ix1 e)

/-- A one-column word table's entry in row `e`. -/
def iat2 {E : Nat} (v : (⟨2, ![E, 1]⟩ : Shape).Idx → BitVec 32) (e : Fin E) : BitVec 32 := v (ix2 e 0)

/-- A signed row number with a negative one moved up by 50000. -/
def normRow (w : BitVec 32) : BitVec 32 :=
  Scalar.select (IntOp.cmpi .slt w 0#32) (IntOp.addi w 50000#32) w

end Cert.Bridge

end
-- ==== Proof.KernelPad.lean ====
/-
  THE KERNEL PROGRAM'S PADDED EDGE COLUMNS, READ AT AN EDGE.

  The program pads its three edge vectors (source numbers, target numbers, weights) from 850000 to 851968 entries by
  concatenating 1968 zeros, so that the edge-indexed regions run over whole blocks of 4096. Read at an edge: on the first
  850000 edges a padded vector is the vector; on the last 1968 the padded weight is zero. Each layer's gather column is the
  padded source numbers normalised (a negative number moved up by the table's height) and broadcast to a column; each
  layer's scatter column is the padded target numbers broadcast to a column.
-/
import proofs.«169315_j54537494724630_1_alg».proof.Proof.Gen.KernelIdeal.Frame
import proofs.«169315_j54537494724630_1_alg».proof.Proof.KernelHost
import proofs.«169315_j54537494724630_1_alg».proof.Proof.Spec
import proofs.«169315_j54537494724630_1_alg».proof.Proof.SpecIdx
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Pad

open Idealize.ShloMosaic Idealize.ShloMosaic.TcCoe Idealize.ShloMosaic.ValueIdx Idealize.SL.Sem Idealize.ShloMosaic.StableHlo
open Cert.KernelIdeal Cert.KernelIdeal.Gen Cert.KernelIdeal.HostV Cert.Bridge

variable (m : (ℓ : Loc nD τ sig) → Buf (Elt Ideal) ℓ) (ρ : Dev nD → PrngReg)

/-- A word vector's entry, as the vector applied to the index. -/
theorem pad_iat1 {E : Nat} (v : IRow E) (e : Fin E) : iat1 v e = v (ix1 e) := rfl

/-- A vector of 850000 entries followed by one of 1968, read at an entry `j` of the first 850000: the first vector's
    entry of the same number. -/
theorem pad_concat_left {α : Type} (x₁ : S850000.Idx → α) (x₂ : S1968.Idx → α) (j : Fin 851968) (e : Fin 850000)
    (h : j.val = e.val) :
    concatenate S851968 0 [⟨S850000, x₁⟩, ⟨S1968, x₂⟩] concatenates_S850000_S1968_S851968_d0 (ix1 j) = x₁ (ix1 e) :=
  concatenate_pair_apply_left (t := S851968) (s₁ := S850000) (s₂ := S1968) (0 : Fin 1) x₁ x₂
    concatenates_S850000_S1968_S851968_d0 (ix1 j) rfl (ix1 e) (fun b => match b with | ⟨0, _⟩ => h.symm)

set_option maxHeartbeats 2000000 in
/-- After the stretch, from ANY contents `X` before it: the padded source numbers are the source numbers followed by
    1968 zero words. -/
theorem pad_after_src (X : Valuation τ sig (Elt Ideal)) :
    StableHlo.after hostOps0_2 X (Proc.devRef .tc main_v32)
      = concatenate S851968 0 [⟨S850000, X (Proc.devRef .tc main_v3)⟩,
          ⟨S1968, broadcastInDim S1968 ![] bcast_S_S1968 (constantI S_ 32 0#32)⟩] concatenates_S850000_S1968_S851968_d0 := by
  after_results

set_option maxHeartbeats 2000000 in
/-- The same for the padded target numbers. -/
theorem pad_after_dst (X : Valuation τ sig (Elt Ideal)) :
    StableHlo.after hostOps0_2 X (Proc.devRef .tc main_v33)
      = concatenate S851968 0 [⟨S850000, X (Proc.devRef .tc main_v6)⟩,
          ⟨S1968, broadcastInDim S1968 ![] bcast_S_S1968 (constantI S_ 32 0#32)⟩] concatenates_S850000_S1968_S851968_d0 := by
  after_results

/-- From any contents before the stretch, the padded source numbers on the first 850000 edges are the source numbers. -/
theorem pad_src_left (X : Valuation τ sig (Elt Ideal)) (e : Fin 850000) :
    iat1 (StableHlo.after hostOps0_2 X (Proc.devRef .tc main_v32)) ⟨e.val, by omega⟩ = iat1 (X (Proc.devRef .tc main_v3)) e := by
  rw [pad_iat1, pad_iat1, pad_after_src X]
  exact pad_concat_left _ _ ⟨e.val, by omega⟩ e rfl

/-- The same for the padded target numbers. -/
theorem pad_dst_left (X : Valuation τ sig (Elt Ideal)) (e : Fin 850000) :
    iat1 (StableHlo.after hostOps0_2 X (Proc.devRef .tc main_v33)) ⟨e.val, by omega⟩ = iat1 (X (Proc.devRef .tc main_v6)) e := by
  rw [pad_iat1, pad_iat1, pad_after_dst X]
  exact pad_concat_left _ _ ⟨e.val, by omega⟩ e rfl

/-- The padded source numbers on the first 850000 edges are the source numbers. -/
theorem src_left (c : Dev nD) (e : Fin 850000) :
    iat1 (W3 m ρ c (Proc.devRef .tc main_v32)) ⟨e.val, by omega⟩ = iat1 (W2 m ρ c (Proc.devRef .tc main_v3)) e := by
  delta W3
  exact pad_src_left (W2 m ρ c) e

/-- The padded target numbers on the first 850000 edges are the target numbers. -/
theorem dst_left (c : Dev nD) (e : Fin 850000) :
    iat1 (W3 m ρ c (Proc.devRef .tc main_v33)) ⟨e.val, by omega⟩ = iat1 (W2 m ρ c (Proc.devRef .tc main_v6)) e := by
  delta W3
  exact pad_dst_left (W2 m ρ c) e

end Cert.KernelIdeal.Pad

end
-- ==== Proof.KernelPadCol.lean ====
/-
  THE KERNEL PROGRAM'S GATHER AND SCATTER COLUMNS, READ AT AN EDGE.

  Each layer's gather column is the padded source numbers normalised (a negative number moved up by the table's height)
  and broadcast to a column; each layer's scatter column is the padded target numbers broadcast to a column. The padded
  numbers are written before the first region and nothing writes them afterwards.
-/
import proofs.«169315_j54537494724630_1_alg».proof.Proof.Gen.KernelIdeal.Frame
import proofs.«169315_j54537494724630_1_alg».proof.Proof.KernelHost
import proofs.«169315_j54537494724630_1_alg».proof.Proof.Spec
import proofs.«169315_j54537494724630_1_alg».proof.Proof.SpecIdx
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.PadCol

open Idealize.ShloMosaic Idealize.ShloMosaic.TcCoe Idealize.ShloMosaic.ValueIdx Idealize.SL.Sem Idealize.ShloMosaic.StableHlo
open Cert.KernelIdeal Cert.KernelIdeal.Gen Cert.KernelIdeal.HostV Cert.Bridge

variable (m : (ℓ : Loc nD τ sig) → Buf (Elt Ideal) ℓ) (ρ : Dev nD → PrngReg)

/-! ### The three reads, over any vector of 851968 words -/

/-- A vector spread to a one-column table, read in row e, is the vector's entry e. -/
theorem col_at (v : IRow 851968) (e' : Fin 851968) :
    iat2 (broadcastInDim S851968x1 ![0] bcast_S851968_S851968x1_0 v) e' = iat1 v e' := by
  unfold iat2 iat1
  exact broadcastInDim_apply _ bcast_S851968_S851968x1_0 v (ix2 e' 0) (ix1 e') (fun a => match a with
    | ⟨0, _⟩ => by show e'.val = if (851968 : Nat) = 1 then 0 else e'.val; rw [if_neg (by decide)])

/-- A scalar word spread to a vector reads that word at every entry. -/
theorem splat_at (w : BitVec 32) (i : S851968.Idx) :
    broadcastInDim S851968 ![] bcast_S_S851968 (constantI S_ 32 w) i = w :=
  (broadcastInDim_apply _ bcast_S_S851968 (constantI S_ 32 w) i (fun a => a.elim0) (fun a => a.elim0)).trans rfl

/-- The vector with its negative entries moved up by 50000, read at entry e, is the normalisation of the vector's entry e:
    the comparison, the addition and the selection act entry by entry, against the scalars 0 and 50000. -/
theorem norm_at (v : IRow 851968) (e' : Fin 851968) :
    iat1 (select (cmpi .slt v (broadcastInDim S851968 ![] bcast_S_S851968 (constantI S_ 32 0#32)))
        (addi v (broadcastInDim S851968 ![] bcast_S_S851968 (constantI S_ 32 50000#32))) v) e'
      = normRow (iat1 v e') := by
  unfold iat1 normRow
  show Scalar.select (IntOp.cmpi .slt (v (ix1 e')) (broadcastInDim S851968 ![] bcast_S_S851968 (constantI S_ 32 0#32) (ix1 e')))
      (IntOp.addi (v (ix1 e')) (broadcastInDim S851968 ![] bcast_S_S851968 (constantI S_ 32 50000#32) (ix1 e'))) (v (ix1 e')) = _
  rw [splat_at, splat_at]

/-! ### The padded numbers are written before the first region and kept by everything after it -/

/-- The padded source numbers at the first layer's gather are those at the first region's entry. -/
theorem src_kept4 (c : Dev nD) : W4 m ρ c (Proc.devRef .tc main_v32) = W3 m ρ c (Proc.devRef .tc main_v32) :=
  keep4 m ρ c main_v32 (by decide)

/-- The padded source numbers at the second layer's gather are those at the first region's entry. -/
theorem src_kept9 (c : Dev nD) : W9 m ρ c (Proc.devRef .tc main_v32) = W3 m ρ c (Proc.devRef .tc main_v32) :=
  (keep9 m ρ c main_v32 (by decide)).trans ((keep8 m ρ c main_v32 (by decide)).trans ((keep7 m ρ c main_v32 (by decide)).trans
    ((keep6 m ρ c main_v32 (by decide)).trans ((keep5 m ρ c main_v32 (by decide)).trans (keep4 m ρ c main_v32 (by decide))))))

/-- The padded target numbers at the first layer's scatter are those at the first region's entry. -/
theorem dst_kept6 (c : Dev nD) : W6 m ρ c (Proc.devRef .tc main_v33) = W3 m ρ c (Proc.devRef .tc main_v33) :=
  (keep6 m ρ c main_v33 (by decide)).trans ((keep5 m ρ c main_v33 (by decide)).trans (keep4 m ρ c main_v33 (by decide)))

/-- The padded target numbers at the second layer's scatter are those at the first region's entry. -/
theorem dst_kept11 (c : Dev nD) : W11 m ρ c (Proc.devRef .tc main_v33) = W3 m ρ c (Proc.devRef .tc main_v33) :=
  (keep11 m ρ c main_v33 (by decide)).trans ((keep10 m ρ c main_v33 (by decide)).trans ((keep9 m ρ c main_v33 (by decide)).trans
    ((keep8 m ρ c main_v33 (by decide)).trans ((keep7 m ρ c main_v33 (by decide)).trans (dst_kept6 m ρ c)))))

/-! ### The four columns -/

/-- The first layer's gather column is the padded source numbers, normalised. -/
theorem gcol1 (c : Dev nD) (e' : Fin 851968) :
    iat2 (W5 m ρ c (Proc.devRef .tc main_v42)) e' = normRow (iat1 (W3 m ρ c (Proc.devRef .tc main_v32)) e') := by
  rw [read_v42 m ρ c, col_at, norm_at, src_kept4 m ρ c]

/-- The second layer's gather column is the same. -/
theorem gcol2 (c : Dev nD) (e' : Fin 851968) :
    iat2 (W10 m ρ c (Proc.devRef .tc main_v56)) e' = normRow (iat1 (W3 m ρ c (Proc.devRef .tc main_v32)) e') := by
  rw [read_v56 m ρ c, col_at, norm_at, src_kept9 m ρ c]

/-- The first layer's scatter column is the padded target numbers. -/
theorem dcol1 (c : Dev nD) (e' : Fin 851968) :
    iat2 (W7 m ρ c (Proc.devRef .tc main_v46)) e' = iat1 (W3 m ρ c (Proc.devRef .tc main_v33)) e' := by
  rw [read_v46 m ρ c, col_at, dst_kept6 m ρ c]

/-- The second layer's scatter column is the same. -/
theorem dcol2 (c : Dev nD) (e' : Fin 851968) :
    iat2 (W12 m ρ c (Proc.devRef .tc main_v60)) e' = iat1 (W3 m ρ c (Proc.devRef .tc main_v33)) e' := by
  rw [read_v60 m ρ c, col_at, dst_kept11 m ρ c]

end Cert.KernelIdeal.PadCol

end
-- ==== Proof.KernelPadW.lean ====
/-
  THE KERNEL PROGRAM'S PADDED WEIGHT COLUMN, READ AT AN EDGE.

  The weight vector of 850000 entries is padded with 1968 zeros and reshaped to a one-column table. Read at an edge: on the
  first 850000 edges the padded column is the weight vector; on the last 1968 it is zero.
-/
import proofs.«169315_j54537494724630_1_alg».proof.Proof.Gen.KernelIdeal.Frame
import proofs.«169315_j54537494724630_1_alg».proof.Proof.KernelHost
import proofs.«169315_j54537494724630_1_alg».proof.Proof.Spec
import proofs.«169315_j54537494724630_1_alg».proof.Proof.SpecIdx
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.PadW

open Idealize.ShloMosaic Idealize.ShloMosaic.TcCoe Idealize.ShloMosaic.ValueIdx Idealize.SL.Sem Idealize.ShloMosaic.StableHlo
open Cert.KernelIdeal Cert.KernelIdeal.Gen Cert.KernelIdeal.HostV Cert.Bridge

variable (m : (ℓ : Loc nD τ sig) → Buf (Elt Ideal) ℓ) (ρ : Dev nD → PrngReg)

/-! ## Moving between a table's element and its coordinates, as equations over any table -/

/-- A vector's element by its coordinate. -/
theorem at1_eq {E : Nat} (v : Row E) (e : Fin E) : at1 v e = v (ix1 e) := rfl
/-- A table's element by its two coordinates. -/
theorem at2_eq {N W : Nat} (x : Tab N W) (n : Fin N) (j : Fin W) : at2 x n j = x (ix2 n j) := rfl

/-! ## The padding over any vectors

A vector `wv` of 850000 entries followed by a vector `z` of 1968 entries, reshaped to one column: row `e'` of the column is
entry `e'` of the joined vector (the reshape keeps the row-major position), which is `wv` at `e'` below 850000 and `z` at
`e' - 850000` from there on. -/

/-- A vector reshaped to a one-column table reads, in row `e'`, the vector's entry `e'`. -/
theorem col_of_vec {E : Nat} (v : Row E) (hn : (⟨1, ![E]⟩ : Shape).ShapeCasts ⟨2, ![E, 1]⟩) (e' : Fin E) :
    shapeCast (⟨2, ![E, 1]⟩ : Shape) v hn (ix2 e' 0) = v (ix1 e') := by
  refine shapeCast_apply v hn (ix2 e' 0) (ix1 e') ?_
  rw [Shape.rowMajor_val_one, Shape.rowMajor_val_two]
  show e'.val = e'.val * 1 + 0
  omega

/-- The padded column on the first 850000 rows is the first vector. -/
theorem pad_left_of (wv : Row 850000) (z : Row 1968)
    (hc : Shape.Concatenates [(⟨1, ![850000]⟩ : Shape), ⟨1, ![1968]⟩] ⟨1, ![851968]⟩ 0)
    (hn : (⟨1, ![851968]⟩ : Shape).ShapeCasts ⟨2, ![851968, 1]⟩) (T : Tab 851968 1)
    (hT : T = shapeCast ⟨2, ![851968, 1]⟩ (concatenate ⟨1, ![851968]⟩ 0 [⟨⟨1, ![850000]⟩, wv⟩, ⟨⟨1, ![1968]⟩, z⟩] hc) hn)
    (e : Fin 850000) : at2 T ⟨e.val, by omega⟩ 0 = at1 wv e := by
  subst hT
  rw [at2_eq, at1_eq, col_of_vec]
  exact concatenate_pair_apply_left 0 wv z hc (ix1 ⟨e.val, by omega⟩) rfl (ix1 e)
    (fun b => match b with | ⟨0, _⟩ => rfl)

/-- The padded column on the last 1968 rows is the second vector; zero when that vector is zero. -/
theorem pad_right_of (wv : Row 850000) (z : Row 1968)
    (hc : Shape.Concatenates [(⟨1, ![850000]⟩ : Shape), ⟨1, ![1968]⟩] ⟨1, ![851968]⟩ 0)
    (hn : (⟨1, ![851968]⟩ : Shape).ShapeCasts ⟨2, ![851968, 1]⟩) (T : Tab 851968 1)
    (hT : T = shapeCast ⟨2, ![851968, 1]⟩ (concatenate ⟨1, ![851968]⟩ 0 [⟨⟨1, ![850000]⟩, wv⟩, ⟨⟨1, ![1968]⟩, z⟩] hc) hn)
    (hz : ∀ i, z i = 0) (e' : Fin 851968) (h : 850000 ≤ e'.val) : at2 T e' 0 = 0 := by
  subst hT
  have h2 : e'.val - 850000 < 1968 := by have := e'.isLt; omega
  rw [at2_eq, col_of_vec]
  -- the joined vector has one axis, the one joined along: no other coordinate to carry over
  have hi : ∀ b : Fin (⟨1, ![1968]⟩ : Shape).rank,
      b.cast (rfl : (⟨1, ![1968]⟩ : Shape).rank = (⟨1, ![851968]⟩ : Shape).rank) ≠ (0 : Fin (⟨1, ![851968]⟩ : Shape).rank) →
      ((ix1 (⟨e'.val - 850000, h2⟩ : Fin 1968)) b).val = ((ix1 e') (b.cast rfl)).val := by
    intro b hb
    exact absurd (Subsingleton.elim _ _) hb
  -- along the joined axis the second piece's coordinate is the whole coordinate less the first piece's length
  have ha : ((ix1 (⟨e'.val - 850000, h2⟩ : Fin 1968)) ((0 : Fin (⟨1, ![851968]⟩ : Shape).rank).cast rfl)).val
      + (⟨1, ![850000]⟩ : Shape).size ((0 : Fin (⟨1, ![851968]⟩ : Shape).rank).cast rfl) = ((ix1 e') 0).val := by
    show e'.val - 850000 + 850000 = e'.val
    omega
  rw [concatenate_pair_apply_right 0 wv z hc (ix1 e') rfl rfl (ix1 ⟨e'.val - 850000, h2⟩) hi ha]
  exact hz _

/-- A table of zeros (a zero constant broadcast to any shape) reads zero. -/
theorem zeros_apply {S : Shape} (h : (⟨0, ![]⟩ : Shape).BroadcastsInDim S ![]) (i : S.Idx) :
    broadcastInDim S ![] h (constant (F := Ideal) (⟨0, ![]⟩ : Shape) .f32 0x00000000#32) i = (0 : EReal) := by
  show Ideal.ofBits .f32 0x00000000#32 = 0
  exact Ideal.ofBits_zero_f32

/-! ## The stretch's last buffer, from any contents before the stretch -/

/-- The padded weight column as the stretch writes it: the reshape to one column of the weight vector (itself written
    earlier in the stretch) followed by 1968 zeros. -/
theorem v35_read (X : Valuation τ sig (Elt Ideal)) :
    StableHlo.after hostOps0_2 X (Proc.devRef .tc main_v35)
      = shapeCast S851968x1
          (concatenate S851968 0
            [⟨S850000, (StableHlo.after hostOps0_2 X (Proc.devRef .tc main_v29) : (⟨S850000, .f32⟩ : BufTy).Contents (Elt Ideal))⟩,
             ⟨S1968, broadcastInDim S1968 ![] bcast_S_S1968 (constant (F := Ideal) S_ .f32 0x00000000#32)⟩]
            concatenates_S850000_S1968_S851968_d0)
          shapeCasts_S851968_S851968x1 := by
  after_results_simp
  rfl

/-! ## The padded weight column at the first region's entry -/

/-- The padded weight column on the first 850000 edges is the weight vector. -/
theorem nrm_left (c : Dev nD) (e : Fin 850000) :
    at2 (W3 m ρ c (Proc.devRef .tc main_v35)) ⟨e.val, by omega⟩ 0 = at1 (W3 m ρ c (Proc.devRef .tc main_v29)) e := by
  exact pad_left_of _ _ concatenates_S850000_S1968_S851968_d0 shapeCasts_S851968_S851968x1 _ (v35_read (W2 m ρ c)) e

/-- The padded weight column on the last 1968 edges is zero. -/
theorem nrm_right (c : Dev nD) (e' : Fin 851968) (h : 850000 ≤ e'.val) :
    at2 (W3 m ρ c (Proc.devRef .tc main_v35)) e' 0 = 0 := by
  exact pad_right_of _ _ concatenates_S850000_S1968_S851968_d0 shapeCasts_S851968_S851968x1 _ (v35_read (W2 m ρ c))
    (fun i => zeros_apply _ i) e' h

end Cert.KernelIdeal.PadW

end
-- ==== Proof.PrefixEq.lean ====
/-
  THE TWO PROGRAMS' SHARED PREFIX IS ONE FUNCTION OF THE EDGE INDEX ARRAY.

  Both programs begin with the same thirty operations: the source and target numbers (a row of the edge index array followed
  by one loop per node), the in-degree of every node (ones added at the target numbers), its inverse square root where
  positive, and the edge weights (the product of that at the two ends of an edge). So the kernel program's buffers after
  that prefix hold what the reference's stages of the same numbers compute from the same edge index array. The reference
  computes the weights a second time for its second layer: the same function again.
-/
import proofs.«169315_j54537494724630_1_alg».proof.Proof.Gen.KernelIdeal.Frame
import proofs.«169315_j54537494724630_1_alg».proof.Proof.KernelHost
import proofs.«169315_j54537494724630_1_alg».proof.Proof.RefRead
import Idealize.ShloMosaic.Lib.StableHlo.Run

set_option maxRecDepth 16384

noncomputable section

namespace Cert.Bridge.PrefixEq

open Idealize.ShloMosaic Idealize.ShloMosaic.TcCoe Idealize.SL.Sem Idealize.ShloMosaic.StableHlo
open Cert.KernelIdeal Cert.KernelIdeal.Gen Cert.KernelIdeal.HostV

variable {F : FTy → Type} [FloatOps F]
variable (m : (ℓ : Loc nD τ sig) → Buf (Elt F) ℓ) (ρ : Dev nD → PrngReg)

/-! ### After the first stretch: the numbers, the in-degrees, and what the selection reads -/

/-- The source numbers after the first stretch: the first row of the edge index array, then one number per node. -/
theorem src1 (c : Dev nD) :
    W1 m ρ c (Proc.devRef .tc main_v3) = Cert.ReferenceIdeal.PRead.val_main_v3 (F := F) (m ((c.tc : Thread nD τ).loc main_arg1)) := by
  show StableHlo.after hostOps0 (W0 m ρ c) (Proc.devRef .tc main_v3) = _
  after_results
  unfold Cert.ReferenceIdeal.PRead.val_main_v3 Cert.ReferenceIdeal.PRead.val_main_v2 Cert.ReferenceIdeal.PRead.val_main_v1 Cert.ReferenceIdeal.PRead.val_main_v0
  rfl

/-- The target numbers after the first stretch: the second row of the edge index array, then one number per node. -/
theorem dst1 (c : Dev nD) :
    W1 m ρ c (Proc.devRef .tc main_v6) = Cert.ReferenceIdeal.PRead.val_main_v6 (F := F) (m ((c.tc : Thread nD τ).loc main_arg1)) := by
  show StableHlo.after hostOps0 (W0 m ρ c) (Proc.devRef .tc main_v6) = _
  after_results
  unfold Cert.ReferenceIdeal.PRead.val_main_v6 Cert.ReferenceIdeal.PRead.val_main_v5 Cert.ReferenceIdeal.PRead.val_main_v4 Cert.ReferenceIdeal.PRead.val_main_v0
  rfl

/-- The in-degrees: ones added into a zero vector at the target numbers. -/
theorem deg1 (c : Dev nD) :
    W1 m ρ c (Proc.devRef .tc main_v10) = Cert.ReferenceIdeal.PRead.val_main_v10 (F := F) (m ((c.tc : Thread nD τ).loc main_arg1)) := by
  have h : W1 m ρ c (Proc.devRef .tc main_v10)
      = Host.scatterAdd scatter_S50000_S850000x1_S850000_n_0_0_1
          (broadcastInDim S50000 ![] bcast_S_S50000 (constant S_ .f32 0x00000000#32))
          (broadcastInDim S850000x1 ![0] bcast_S850000_S850000x1_0 (W1 m ρ c (Proc.devRef .tc main_v6)))
          (broadcastInDim S850000 ![] bcast_S_S850000 (constant S_ .f32 0x3F800000#32)) := by
    show StableHlo.after hostOps0 (W0 m ρ c) (Proc.devRef .tc main_v10)
      = Host.scatterAdd _ _ (broadcastInDim _ _ _ (StableHlo.after hostOps0 (W0 m ρ c) (Proc.devRef .tc main_v6))) _
    after_results
  rw [h, dst1]
  unfold Cert.ReferenceIdeal.PRead.val_main_v10 Cert.ReferenceIdeal.PRead.val_main_v9 Cert.ReferenceIdeal.PRead.val_main_v8 Cert.ReferenceIdeal.PRead.val_main_v7 Cert.ReferenceIdeal.PRead.val_main_cst Cert.ReferenceIdeal.PRead.val_main_cst_0
  rfl

/-- Which in-degrees are positive. -/
theorem pos1 (c : Dev nD) :
    W1 m ρ c (Proc.devRef .tc main_v12) = Cert.ReferenceIdeal.PRead.val_main_v12 (F := F) (m ((c.tc : Thread nD τ).loc main_arg1)) := by
  have h : W1 m ρ c (Proc.devRef .tc main_v12)
      = cmpf (F := F) .ogt (W1 m ρ c (Proc.devRef .tc main_v10))
          (broadcastInDim S50000 ![] bcast_S_S50000 (constant S_ .f32 0x00000000#32)) := by
    show StableHlo.after hostOps0 (W0 m ρ c) (Proc.devRef .tc main_v12)
      = cmpf (F := F) .ogt (StableHlo.after hostOps0 (W0 m ρ c) (Proc.devRef .tc main_v10)) _
    after_results
  rw [h, deg1]
  unfold Cert.ReferenceIdeal.PRead.val_main_v12 Cert.ReferenceIdeal.PRead.val_main_v11 Cert.ReferenceIdeal.PRead.val_main_cst_1
  rfl

/-- The inverse square roots of the in-degrees. -/
theorem rsq1 (c : Dev nD) :
    W1 m ρ c (Proc.devRef .tc main_v13) = Cert.ReferenceIdeal.PRead.val_main_v13 (F := F) (m ((c.tc : Thread nD τ).loc main_arg1)) := by
  have h : W1 m ρ c (Proc.devRef .tc main_v13) = Host.rsqrt (W1 m ρ c (Proc.devRef .tc main_v10)) := by
    show StableHlo.after hostOps0 (W0 m ρ c) (Proc.devRef .tc main_v13)
      = Host.rsqrt (StableHlo.after hostOps0 (W0 m ρ c) (Proc.devRef .tc main_v10))
    after_results
  rw [h, deg1]
  unfold Cert.ReferenceIdeal.PRead.val_main_v13
  rfl

/-- The zero the selection falls back on. -/
theorem zero1 (c : Dev nD) :
    W1 m ρ c (Proc.devRef .tc main_cst_2) = Cert.ReferenceIdeal.PRead.val_main_cst_2 (F := F) := by
  show StableHlo.after hostOps0 (W0 m ρ c) (Proc.devRef .tc main_cst_2) = _
  after_results
  unfold Cert.ReferenceIdeal.PRead.val_main_cst_2
  rfl

/-! ### After the selection: the numbers kept, the inverse square root where the in-degree is positive -/

/-- The source numbers. -/
theorem src_eq (c : Dev nD) :
    W2 m ρ c (Proc.devRef .tc main_v3) = Cert.ReferenceIdeal.PRead.val_main_v3 (F := F) (m ((c.tc : Thread nD τ).loc main_arg1)) :=
  (keep2 m ρ c main_v3 (by decide)).trans (src1 m ρ c)

/-- The target numbers. -/
theorem dst_eq (c : Dev nD) :
    W2 m ρ c (Proc.devRef .tc main_v6) = Cert.ReferenceIdeal.PRead.val_main_v6 (F := F) (m ((c.tc : Thread nD τ).loc main_arg1)) :=
  (keep2 m ρ c main_v6 (by decide)).trans (dst1 m ρ c)

/-- The selection, from any contents before it: the second operand where the first is true, the broadcast of the
    scalar elsewhere. -/
theorem where_read (X : Valuation τ sig (Elt F)) :
    StableHlo.after hostOps0_1 X (Proc.devRef .tc main_v14)
      = select (X (Proc.devRef .tc main_v12)) (X (Proc.devRef .tc main_v13))
          (broadcastInDim S50000 ![] bcast_S_S50000 (id (X (Proc.devRef .tc main_cst_2)))) := by
  after_results
  rfl

/-- The inverse square root of the in-degree where it is positive, zero elsewhere. -/
theorem dinv_eq (c : Dev nD) :
    W2 m ρ c (Proc.devRef .tc main_v14) = Cert.ReferenceIdeal.PRead.val_main_v14 (F := F) (m ((c.tc : Thread nD τ).loc main_arg1)) := by
  refine (where_read (W1 m ρ c)).trans ?_
  rw [pos1, rsq1, zero1]
  unfold Cert.ReferenceIdeal.PRead.val_main_v14 Cert.ReferenceIdeal.PRead.val_main_call0_v1 Cert.ReferenceIdeal.PRead.val_main_call0_v0
  rfl

/-! ### After the third stretch: the edge weights -/

/-- The edge weights, from any contents before the third stretch: the product, over an edge, of the table's entries at its
    two ends, each end's number moved up by the node count when negative. -/
theorem weights_read (X : Valuation τ sig (Elt F)) :
    StableHlo.after hostOps0_2 X (Proc.devRef .tc main_v29)
      = mulf
          (Host.gather gather_S50000_S850000x1_S850000_n_0_n_n_0_1_1 (X (Proc.devRef .tc main_v14))
            (broadcastInDim S850000x1 ![0] bcast_S850000_S850000x1_0
              (select (cmpi .slt (X (Proc.devRef .tc main_v3)) (broadcastInDim S850000 ![] bcast_S_S850000 (constantI S_ 32 0#32)))
                (addi (X (Proc.devRef .tc main_v3)) (broadcastInDim S850000 ![] bcast_S_S850000 (constantI S_ 32 50000#32)))
                (X (Proc.devRef .tc main_v3)))))
          (Host.gather gather_S50000_S850000x1_S850000_n_0_n_n_0_1_1 (X (Proc.devRef .tc main_v14))
            (broadcastInDim S850000x1 ![0] bcast_S850000_S850000x1_0
              (select (cmpi .slt (X (Proc.devRef .tc main_v6)) (broadcastInDim S850000 ![] bcast_S_S850000 (constantI S_ 32 0#32)))
                (addi (X (Proc.devRef .tc main_v6)) (broadcastInDim S850000 ![] bcast_S_S850000 (constantI S_ 32 50000#32)))
                (X (Proc.devRef .tc main_v6))))) := by
  after_results_simp

/-- The edge weights. -/
theorem nrm_eq (c : Dev nD) :
    W3 m ρ c (Proc.devRef .tc main_v29) = Cert.ReferenceIdeal.PRead.val_main_v29 (F := F) (m ((c.tc : Thread nD τ).loc main_arg1)) := by
  refine (weights_read (W2 m ρ c)).trans ?_
  rw [src_eq, dst_eq, dinv_eq]
  unfold Cert.ReferenceIdeal.PRead.val_main_v29 Cert.ReferenceIdeal.PRead.val_main_v21 Cert.ReferenceIdeal.PRead.val_main_v28 Cert.ReferenceIdeal.PRead.val_main_v20 Cert.ReferenceIdeal.PRead.val_main_v27 Cert.ReferenceIdeal.PRead.val_main_v19 Cert.ReferenceIdeal.PRead.val_main_v26
    Cert.ReferenceIdeal.PRead.val_main_v16 Cert.ReferenceIdeal.PRead.val_main_v18 Cert.ReferenceIdeal.PRead.val_main_v23 Cert.ReferenceIdeal.PRead.val_main_v25 Cert.ReferenceIdeal.PRead.val_main_v15 Cert.ReferenceIdeal.PRead.val_main_v17 Cert.ReferenceIdeal.PRead.val_main_v22 Cert.ReferenceIdeal.PRead.val_main_v24
    Cert.ReferenceIdeal.PRead.val_main_c Cert.ReferenceIdeal.PRead.val_main_c_3 Cert.ReferenceIdeal.PRead.val_main_c_4 Cert.ReferenceIdeal.PRead.val_main_c_5
  rfl

/-! ### The reference's second computation of the edge weights, stage by stage

Each repeated stage is the same operation as its first occurrence, over operands already identified. -/

/-- The in-degrees again. -/
theorem again_v51 (ei : (⟨Cert.ReferenceIdeal.S2x800000, .i32⟩ : BufTy).Contents (Elt F)) :
    Cert.ReferenceIdeal.PRead.val_main_v51 (F := F) ei = Cert.ReferenceIdeal.PRead.val_main_v10 (F := F) ei := by
  unfold Cert.ReferenceIdeal.PRead.val_main_v51 Cert.ReferenceIdeal.PRead.val_main_v10
  unfold Cert.ReferenceIdeal.PRead.val_main_v50 Cert.ReferenceIdeal.PRead.val_main_v49 Cert.ReferenceIdeal.PRead.val_main_v48 Cert.ReferenceIdeal.PRead.val_main_cst_9 Cert.ReferenceIdeal.PRead.val_main_cst_10 Cert.ReferenceIdeal.PRead.val_main_v9 Cert.ReferenceIdeal.PRead.val_main_v8 Cert.ReferenceIdeal.PRead.val_main_v7 Cert.ReferenceIdeal.PRead.val_main_cst Cert.ReferenceIdeal.PRead.val_main_cst_0
  rfl

/-- Which in-degrees are positive, again. -/
theorem again_v53 (ei : (⟨Cert.ReferenceIdeal.S2x800000, .i32⟩ : BufTy).Contents (Elt F)) :
    Cert.ReferenceIdeal.PRead.val_main_v53 (F := F) ei = Cert.ReferenceIdeal.PRead.val_main_v12 (F := F) ei := by
  unfold Cert.ReferenceIdeal.PRead.val_main_v53 Cert.ReferenceIdeal.PRead.val_main_v12
  rw [again_v51 ei]
  unfold Cert.ReferenceIdeal.PRead.val_main_v52 Cert.ReferenceIdeal.PRead.val_main_cst_11 Cert.ReferenceIdeal.PRead.val_main_v11 Cert.ReferenceIdeal.PRead.val_main_cst_1
  rfl

/-- The inverse square roots again. -/
theorem again_v54 (ei : (⟨Cert.ReferenceIdeal.S2x800000, .i32⟩ : BufTy).Contents (Elt F)) :
    Cert.ReferenceIdeal.PRead.val_main_v54 (F := F) ei = Cert.ReferenceIdeal.PRead.val_main_v13 (F := F) ei := by
  unfold Cert.ReferenceIdeal.PRead.val_main_v54 Cert.ReferenceIdeal.PRead.val_main_v13
  rw [again_v51 ei]

/-- The inverse square roots where the in-degree is positive and zero elsewhere, again. -/
theorem again_v55 (ei : (⟨Cert.ReferenceIdeal.S2x800000, .i32⟩ : BufTy).Contents (Elt F)) :
    Cert.ReferenceIdeal.PRead.val_main_v55 (F := F) ei = Cert.ReferenceIdeal.PRead.val_main_v14 (F := F) ei := by
  unfold Cert.ReferenceIdeal.PRead.val_main_v55 Cert.ReferenceIdeal.PRead.val_main_v14
  rw [again_v53 ei, again_v54 ei]
  unfold Cert.ReferenceIdeal.PRead.val_main_call2_v1 Cert.ReferenceIdeal.PRead.val_main_call2_v0 Cert.ReferenceIdeal.PRead.val_main_cst_12 Cert.ReferenceIdeal.PRead.val_main_call0_v1 Cert.ReferenceIdeal.PRead.val_main_call0_v0 Cert.ReferenceIdeal.PRead.val_main_cst_2
  rfl

/-- The source numbers with the negative ones moved up, again. -/
theorem again_v60 (ei : (⟨Cert.ReferenceIdeal.S2x800000, .i32⟩ : BufTy).Contents (Elt F)) :
    Cert.ReferenceIdeal.PRead.val_main_v60 (F := F) ei = Cert.ReferenceIdeal.PRead.val_main_v19 (F := F) ei := by
  unfold Cert.ReferenceIdeal.PRead.val_main_v60 Cert.ReferenceIdeal.PRead.val_main_v19
  unfold Cert.ReferenceIdeal.PRead.val_main_v57 Cert.ReferenceIdeal.PRead.val_main_v59 Cert.ReferenceIdeal.PRead.val_main_v56 Cert.ReferenceIdeal.PRead.val_main_v58 Cert.ReferenceIdeal.PRead.val_main_c_13 Cert.ReferenceIdeal.PRead.val_main_c_14 Cert.ReferenceIdeal.PRead.val_main_v16 Cert.ReferenceIdeal.PRead.val_main_v18 Cert.ReferenceIdeal.PRead.val_main_v15 Cert.ReferenceIdeal.PRead.val_main_v17 Cert.ReferenceIdeal.PRead.val_main_c Cert.ReferenceIdeal.PRead.val_main_c_3
  rfl

/-- As a column. -/
theorem again_v61 (ei : (⟨Cert.ReferenceIdeal.S2x800000, .i32⟩ : BufTy).Contents (Elt F)) :
    Cert.ReferenceIdeal.PRead.val_main_v61 (F := F) ei = Cert.ReferenceIdeal.PRead.val_main_v20 (F := F) ei := by
  unfold Cert.ReferenceIdeal.PRead.val_main_v61 Cert.ReferenceIdeal.PRead.val_main_v20
  rw [again_v60 ei]

/-- The inverse square roots at the source ends, again. -/
theorem again_v62 (ei : (⟨Cert.ReferenceIdeal.S2x800000, .i32⟩ : BufTy).Contents (Elt F)) :
    Cert.ReferenceIdeal.PRead.val_main_v62 (F := F) ei = Cert.ReferenceIdeal.PRead.val_main_v21 (F := F) ei := by
  unfold Cert.ReferenceIdeal.PRead.val_main_v62 Cert.ReferenceIdeal.PRead.val_main_v21
  rw [again_v55 ei, again_v61 ei]

/-- The target numbers with the negative ones moved up, again. -/
theorem again_v67 (ei : (⟨Cert.ReferenceIdeal.S2x800000, .i32⟩ : BufTy).Contents (Elt F)) :
    Cert.ReferenceIdeal.PRead.val_main_v67 (F := F) ei = Cert.ReferenceIdeal.PRead.val_main_v26 (F := F) ei := by
  unfold Cert.ReferenceIdeal.PRead.val_main_v67 Cert.ReferenceIdeal.PRead.val_main_v26
  unfold Cert.ReferenceIdeal.PRead.val_main_v64 Cert.ReferenceIdeal.PRead.val_main_v66 Cert.ReferenceIdeal.PRead.val_main_v63 Cert.ReferenceIdeal.PRead.val_main_v65 Cert.ReferenceIdeal.PRead.val_main_c_15 Cert.ReferenceIdeal.PRead.val_main_c_16 Cert.ReferenceIdeal.PRead.val_main_v23 Cert.ReferenceIdeal.PRead.val_main_v25 Cert.ReferenceIdeal.PRead.val_main_v22 Cert.ReferenceIdeal.PRead.val_main_v24 Cert.ReferenceIdeal.PRead.val_main_c_4 Cert.ReferenceIdeal.PRead.val_main_c_5
  rfl

/-- As a column. -/
theorem again_v68 (ei : (⟨Cert.ReferenceIdeal.S2x800000, .i32⟩ : BufTy).Contents (Elt F)) :
    Cert.ReferenceIdeal.PRead.val_main_v68 (F := F) ei = Cert.ReferenceIdeal.PRead.val_main_v27 (F := F) ei := by
  unfold Cert.ReferenceIdeal.PRead.val_main_v68 Cert.ReferenceIdeal.PRead.val_main_v27
  rw [again_v67 ei]

/-- The inverse square roots at the target ends, again. -/
theorem again_v69 (ei : (⟨Cert.ReferenceIdeal.S2x800000, .i32⟩ : BufTy).Contents (Elt F)) :
    Cert.ReferenceIdeal.PRead.val_main_v69 (F := F) ei = Cert.ReferenceIdeal.PRead.val_main_v28 (F := F) ei := by
  unfold Cert.ReferenceIdeal.PRead.val_main_v69 Cert.ReferenceIdeal.PRead.val_main_v28
  rw [again_v55 ei, again_v68 ei]

/-- The reference's second computation of the edge weights is its first. -/
theorem nrm_again (ei : (⟨Cert.ReferenceIdeal.S2x800000, .i32⟩ : BufTy).Contents (Elt F)) :
    Cert.ReferenceIdeal.PRead.val_main_v70 (F := F) ei = Cert.ReferenceIdeal.PRead.val_main_v29 (F := F) ei := by
  unfold Cert.ReferenceIdeal.PRead.val_main_v70 Cert.ReferenceIdeal.PRead.val_main_v29
  rw [again_v62 ei, again_v69 ei]

end Cert.Bridge.PrefixEq

end
-- ==== Proof.RefPad.lean ====
/-
  THE REFERENCE'S EDGE COLUMNS, READ AT AN EDGE.

  Each layer's gather column is the source numbers normalised (a negative number moved up by the table's height) and
  broadcast to a column; each layer's scatter column is the target numbers broadcast to a column.
-/
import proofs.«169315_j54537494724630_1_alg».proof.Proof.RefRead
import proofs.«169315_j54537494724630_1_alg».proof.Proof.SpecIdx
import Idealize.ShloMosaic.Lib.Pipeline.Value
import Idealize.ShloMosaic.Lib.ValueIdx

set_option maxRecDepth 16384

noncomputable section

namespace Cert.ReferenceIdeal.RefPad

open Idealize.ShloMosaic Idealize.ShloMosaic.TcCoe Idealize.ShloMosaic.ValueIdx Idealize.SL.Sem
open Cert.ReferenceIdeal Cert.ReferenceIdeal.Gen Cert.ReferenceIdeal.PRead Cert.Bridge

/-! Row `e` of a column broadcast from a vector reads the vector's entry `e` (one statement per broadcast of the program). -/

theorem idx_v36 (e : Fin 850000) : idx_main_v36 (ix2 e 0) = ix1 e :=
  funext fun a => Fin.ext (by match a with | ⟨0, _⟩ => rfl)
theorem idx_v77 (e : Fin 850000) : idx_main_v77 (ix2 e 0) = ix1 e :=
  funext fun a => Fin.ext (by match a with | ⟨0, _⟩ => rfl)
theorem idx_v42 (e : Fin 850000) : idx_main_v42 (ix2 e 0) = ix1 e :=
  funext fun a => Fin.ext (by match a with | ⟨0, _⟩ => rfl)
theorem idx_v83 (e : Fin 850000) : idx_main_v83 (ix2 e 0) = ix1 e :=
  funext fun a => Fin.ext (by match a with | ⟨0, _⟩ => rfl)

variable (ei : (⟨S2x800000, .i32⟩ : BufTy).Contents (Elt Ideal))

/-- The first layer's gather column. -/
theorem gcol1 (e : Fin 850000) : iat2 (val_main_v36 (F := Ideal) ei) e = normRow (iat1 (val_main_v3 (F := Ideal) ei) e) := by
  unfold iat2 iat1 normRow
  rw [val_main_v36_apply, idx_v36, val_main_v35_apply, val_main_v32_apply, val_main_v34_apply, val_main_v31_apply,
    val_main_v33_apply, val_main_c_6_apply, val_main_c_7_apply]

/-- The second layer's gather column. -/
theorem gcol2 (e : Fin 850000) : iat2 (val_main_v77 (F := Ideal) ei) e = normRow (iat1 (val_main_v3 (F := Ideal) ei) e) := by
  unfold iat2 iat1 normRow
  rw [val_main_v77_apply, idx_v77, val_main_v76_apply, val_main_v73_apply, val_main_v75_apply, val_main_v72_apply,
    val_main_v74_apply, val_main_c_17_apply, val_main_c_18_apply]

/-- The first layer's scatter column. -/
theorem dcol1 (e : Fin 850000) : iat2 (val_main_v42 (F := Ideal) ei) e = iat1 (val_main_v6 (F := Ideal) ei) e := by
  unfold iat2 iat1
  rw [val_main_v42_apply, idx_v42]

/-- The second layer's scatter column. -/
theorem dcol2 (e : Fin 850000) : iat2 (val_main_v83 (F := Ideal) ei) e = iat1 (val_main_v6 (F := Ideal) ei) e := by
  unfold iat2 iat1
  rw [val_main_v83_apply, idx_v83]

end Cert.ReferenceIdeal.RefPad

end
-- ==== Proof.RefValue2.lean ====
/-
  THE REFERENCE'S SECOND LAYER, ELEMENT BY ELEMENT, OVER ITS FIRST LAYER'S OUTPUT LEFT UNOPENED.

  The second layer multiplies the first layer's output table by the second weights, takes the rows the source numbers name
  (clamped), multiplies each by its edge's weight, adds them into a zero table at the rows the target numbers name, and adds
  the second bias. Read at an element that is one propagation step over the product, plus the bias entry.
-/
import proofs.«169315_j54537494724630_1_alg».proof.Proof.RefRead
import proofs.«169315_j54537494724630_1_alg».proof.Proof.Spec
import proofs.«169315_j54537494724630_1_alg».proof.Proof.LibGatherScatter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefV2

open Idealize.ShloMosaic Idealize.ShloMosaic.TcCoe Idealize.ShloMosaic.ValueIdx Idealize.SL.Sem
open Cert.ReferenceIdeal Cert.ReferenceIdeal.Gen Cert.ReferenceIdeal.PRead Cert.Bridge

attribute [local irreducible] Cert.ReferenceIdeal.PRead.val_main_v47 Cert.ReferenceIdeal.PRead.val_main_v70
  Cert.ReferenceIdeal.PRead.val_main_v77 Cert.ReferenceIdeal.PRead.val_main_v83

/-- A vector's element by its coordinate, as an equation. -/
private theorem at1_eq {E : Nat} (v : Row E) (e : Fin E) : at1 v e = v (ix1 e) := rfl

/-- A table's element by its two coordinates, as an equation. -/
private theorem at2_eq {N W : Nat} (t : Tab N W) (n : Fin N) (j : Fin W) : at2 t n j = t (ix2 n j) := rfl

section Stages

variable (x : Tab 50000 128) (ei : (⟨2, ![2, 800000]⟩ : Shape).Idx → BitVec 32) (w1 : Tab 128 128) (b1 : Row 128)
  (w2 : Tab 128 64) (b2 : Row 64)

/-- The product's left operand is read at (n, k), -/
theorem lidx_at (n : Fin 50000) (q : Fin 64) (k : Fin 128) : lidx_main_v71 (ix2 n q) k = ix2 n k :=
  funext fun a => Fin.ext (by match a with | ⟨0, _⟩ => rfl | ⟨1, _⟩ => rfl)

/-- and its right operand at (k, q). -/
theorem ridx_at (n : Fin 50000) (q : Fin 64) (k : Fin 128) : ridx_main_v71 (ix2 n q) k = ix2 k q :=
  funext fun a => Fin.ext (by match a with | ⟨0, _⟩ => rfl | ⟨1, _⟩ => rfl)

/-- The product of the first layer's output and the second weights, as a table. -/
theorem prod_eq : (val_main_v71 (F := Ideal) x ei w1 b1 w2 : Tab 50000 64)
    = tab2 (mmAt (val_main_v47 (F := Ideal) x ei w1 b1) w2) := by
  funext i
  obtain ⟨n, q, rfl⟩ : ∃ (n : Fin 50000) (q : Fin 64), i = ix2 n q := ⟨i 0, i 1, eq_ix2 i⟩
  rw [tab2_apply, val_main_v71_apply]
  unfold mmAt
  simp only [lidx_at, ridx_at]

/-- The gathered rows: row e is the product's row the source number of edge e names, clamped. -/
theorem gathered_at (e : Fin 850000) (q : Fin 64) :
    val_main_v78 (F := Ideal) x ei w1 b1 w2 (ix2 e q)
      = tab2 (mmAt (val_main_v47 (F := Ideal) x ei w1 b1) w2) (ix2 (clampRow (val_main_v77 (F := Ideal) ei (ix2 e 0))) q) := by
  unfold val_main_v78
  rw [prod_eq]
  exact Cert.Bridge.GS.gather_apply (by decide) gather_S50000x64_S850000x1_S850000x64_1_0_n_n_0_1_164 rfl rfl rfl rfl rfl _ _ e q

/-- Row e of the weight table, at any column, is read at the weight vector's entry e. -/
theorem weight_idx (e : Fin 850000) (q : Fin 64) : idx_main_v79 (idx_main_v80 (ix2 e q)) = ix1 e :=
  funext fun a => Fin.ext (by match a with | ⟨0, _⟩ => rfl)

/-- The edge weights broadcast over the columns: row e holds the weight of edge e. -/
theorem weight_at (e : Fin 850000) (q : Fin 64) :
    val_main_v80 (F := Ideal) ei (ix2 e q) = at1 (val_main_v70 (F := Ideal) ei) e := by
  rw [at1_eq, val_main_v80_apply, val_main_v79_apply, weight_idx]

/-- The updates: the gathered row times its edge's weight. -/
theorem update_at (e : Fin 850000) (q : Fin 64) :
    val_main_v81 (F := Ideal) x ei w1 b1 w2 (ix2 e q)
      = tab2 (mmAt (val_main_v47 (F := Ideal) x ei w1 b1) w2) (ix2 (clampRow (val_main_v77 (F := Ideal) ei (ix2 e 0))) q)
        * at1 (val_main_v70 (F := Ideal) ei) e := by
  rw [val_main_v81_apply, gathered_at, weight_at]
  exact Ideal.mulf_def _ _

/-- The table the updates are added into is zero. -/
theorem zero_at (n : Fin 50000) (q : Fin 64) : val_main_v82 (F := Ideal) (ix2 n q) = 0 := by
  rw [val_main_v82_apply, val_main_cst_19_apply]
  exact Ideal.ofBits_zero_f32

/-- The propagation step: zero plus, over the edges whose target number is n, the update's element. -/
theorem scattered_at (n : Fin 50000) (q : Fin 64) :
    val_main_v84 (F := Ideal) x ei w1 b1 w2 (ix2 n q)
      = aggAt (tab2 (mmAt (val_main_v47 (F := Ideal) x ei w1 b1) w2))
          (val_main_v77 (F := Ideal) ei) (val_main_v83 (F := Ideal) ei) (fun e => at1 (val_main_v70 (F := Ideal) ei) e) n q := by
  unfold val_main_v84
  rw [aggAt, Cert.Bridge.GS.scatterAdd_apply scatter_S50000x64_S850000x1_S850000x64_1_0_0_1 rfl rfl rfl rfl _ _ _ n q, zero_at]
  refine congrArg₂ (· + ·) rfl ?_
  exact Finset.sum_congr rfl fun e _ => update_at x ei w1 b1 w2 e q

/-- Column q of the bias table, at any row, is read at the bias vector's entry q. -/
theorem bias_idx (n : Fin 50000) (q : Fin 64) : idx_main_v85 (idx_main_v86 (ix2 n q)) = ix1 q :=
  funext fun a => Fin.ext (by match a with | ⟨0, _⟩ => rfl)

/-- The bias broadcast over the rows: column q holds the bias's entry q. -/
theorem bias_at (n : Fin 50000) (q : Fin 64) : val_main_v86 (F := Ideal) b2 (ix2 n q) = b2 (ix1 q) := by
  rw [val_main_v86_apply, val_main_v85_apply, bias_idx]

end Stages

/-- THE SECOND LAYER at node `n`, column `j`, over the first layer's output `val_main_v47 …` as it stands. -/
theorem layer2 (x : Tab 50000 128) (ei : (⟨2, ![2, 800000]⟩ : Shape).Idx → BitVec 32) (w1 : Tab 128 128) (b1 : Row 128)
    (w2 : Tab 128 64) (b2 : Row 64) (n : Fin 50000) (j : Fin 64) :
    at2 (val_main_v87 (F := Ideal) x ei w1 b1 w2 b2) n j
      = aggAt (tab2 (mmAt (val_main_v47 (F := Ideal) x ei w1 b1) w2))
          (val_main_v77 (F := Ideal) ei) (val_main_v83 (F := Ideal) ei) (fun e => at1 (val_main_v70 (F := Ideal) ei) e) n j
        + b2 (ix1 j) := by
  rw [at2_eq, val_main_v87_apply, scattered_at, bias_at]
  exact Ideal.addf_def _ _

end Cert.ReferenceIdeal.RefV2

end
-- ==== Proof.RefValue.lean ====
/-
  THE REFERENCE'S RESULT, ELEMENT BY ELEMENT.

  The reference computes the same two layers over the UNPADDED edge list of 850000 edges (the 800000 given ones and one loop
  per node), each layer as: the input table times the weights, the rows the source numbers name (clamped), each times its
  edge's weight, added into a zero table at the rows the target numbers name, plus the bias; the positive part between the
  layers. It recomputes the edge weights for the second layer. Read at an element its result is `outAt` of the arguments
  with the reference's own gather columns, scatter columns and weight vectors.

  This module reads the FIRST layer: as a table, its output is `hidden` of the input, the first weights and bias, and the
  first layer's three edge columns. The second layer, read over the first layer's output, is the module RefValue2's; the two
  joined give the result.
-/
import proofs.«169315_j54537494724630_1_alg».proof.Proof.RefRead
import proofs.«169315_j54537494724630_1_alg».proof.Proof.Spec
import proofs.«169315_j54537494724630_1_alg».proof.Proof.LibGatherScatter
import proofs.«169315_j54537494724630_1_alg».proof.Proof.RefValue2
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.ReferenceIdeal.RefV

open Idealize.ShloMosaic Idealize.ShloMosaic.TcCoe Idealize.ShloMosaic.ValueIdx Idealize.SL.Sem
open Cert.ReferenceIdeal Cert.ReferenceIdeal.Gen Cert.ReferenceIdeal.PRead Cert.Bridge

/-! ## The specification's functions unfolded once, over arbitrary arguments -/

theorem at1_def {E : Nat} (v : Row E) (e : Fin E) : at1 v e = v (ix1 e) := rfl

theorem aggAt_def {E W : Nat} (h : Tab 50000 W) (g d : ICol E) (s : Fin E → EReal) (n : Fin 50000) (j : Fin W) :
    aggAt h g d s n j
      = 0 + ∑ e ∈ Finset.univ.filter (fun e : Fin E => (d (ix2 e 0)).toInt = (n.val : Int)),
          h (ix2 (clampRow (g (ix2 e 0))) j) * s e := rfl

theorem hidden_def {E : Nat} (x : Tab 50000 128) (w1 : Tab 128 128) (b1 : Row 128) (g d : ICol E) (s : Fin E → EReal)
    (n : Fin 50000) (j : Fin 128) :
    Cert.Bridge.hidden x w1 b1 g d s (ix2 n j) = max (aggAt (tab2 (mmAt x w1)) g d s n j + b1 (ix1 j)) 0 := rfl

/-! ## The first layer -/

/-- The product's left operand index at (n, q), term k: row n, column k. -/
theorem lidx30_ix (n : Fin 50000) (q k : Fin 128) : lidx_main_v30 (ix2 n q) k = ix2 n k :=
  funext fun a => Fin.ext (by match a with | ⟨0, _⟩ => rfl | ⟨1, _⟩ => rfl)

/-- The product's right operand index at (n, q), term k: row k, column q. -/
theorem ridx30_ix (n : Fin 50000) (q k : Fin 128) : ridx_main_v30 (ix2 n q) k = ix2 k q :=
  funext fun a => Fin.ext (by match a with | ⟨0, _⟩ => rfl | ⟨1, _⟩ => rfl)

/-- The input table times the first weights, as a table. -/
theorem v30_eq (x : Tab 50000 128) (w1 : Tab 128 128) : val_main_v30 (F := Ideal) x w1 = tab2 (mmAt x w1) := by
  funext i
  obtain ⟨n, q, rfl⟩ : ∃ n q, i = ix2 n q := ⟨i 0, i 1, eq_ix2 i⟩
  rw [tab2_apply, val_main_v30_apply]
  unfold mmAt
  simp only [lidx30_ix, ridx30_ix]

/-- The gathered rows at (e, q): the product's row that edge e's source number names (clamped), column q. -/
theorem v37_at (x : Tab 50000 128) (ei : (⟨2, ![2, 800000]⟩ : Shape).Idx → BitVec 32) (w1 : Tab 128 128)
    (e : Fin 850000) (q : Fin 128) :
    val_main_v37 (F := Ideal) x ei w1 (ix2 e q)
      = tab2 (mmAt x w1) (ix2 (clampRow (val_main_v36 (F := Ideal) ei (ix2 e 0))) q) := by
  unfold val_main_v37
  rw [v30_eq]
  exact GS.gather_apply (by omega) gather_S50000x128_S850000x1_S850000x128_1_0_n_n_0_1_1128 rfl rfl rfl rfl rfl _ _ e q

/-- The weight vector broadcast along the columns reads, at (e, q), the vector at e. -/
theorem idx3839_ix (e : Fin 850000) (q : Fin 128) : idx_main_v38 (idx_main_v39 (ix2 e q)) = ix1 e :=
  funext fun a => Fin.ext (by match a with | ⟨0, _⟩ => rfl)

/-- The broadcast weights at (e, q): edge e's weight. -/
theorem v39_at (ei : (⟨2, ![2, 800000]⟩ : Shape).Idx → BitVec 32) (e : Fin 850000) (q : Fin 128) :
    val_main_v39 (F := Ideal) ei (ix2 e q) = at1 (val_main_v29 (F := Ideal) ei) e := by
  rw [val_main_v39_apply, val_main_v38_apply, idx3839_ix, at1_def]

/-- The scaled rows at (e, q): the gathered element times edge e's weight. -/
theorem v40_at (x : Tab 50000 128) (ei : (⟨2, ![2, 800000]⟩ : Shape).Idx → BitVec 32) (w1 : Tab 128 128)
    (e : Fin 850000) (q : Fin 128) :
    val_main_v40 (F := Ideal) x ei w1 (ix2 e q)
      = tab2 (mmAt x w1) (ix2 (clampRow (val_main_v36 (F := Ideal) ei (ix2 e 0))) q) * at1 (val_main_v29 (F := Ideal) ei) e := by
  rw [val_main_v40_apply, v37_at, v39_at, Ideal.mulf_def]

/-- The zero table the scatter adds into, at (n, q). -/
theorem v41_at (n : Fin 50000) (q : Fin 128) : (val_main_v41 (F := Ideal) : Tab 50000 128) (ix2 n q) = 0 := by
  rw [val_main_v41_apply, val_main_cst_8_apply]
  exact Ideal.ofBits_zero_f32

/-- The scatter-add into the zero table at (n, q): what node n receives in column q. -/
theorem v43_at (x : Tab 50000 128) (ei : (⟨2, ![2, 800000]⟩ : Shape).Idx → BitVec 32) (w1 : Tab 128 128)
    (n : Fin 50000) (q : Fin 128) :
    val_main_v43 (F := Ideal) x ei w1 (ix2 n q)
      = aggAt (tab2 (mmAt x w1)) (val_main_v36 (F := Ideal) ei) (val_main_v42 (F := Ideal) ei)
          (fun e => at1 (val_main_v29 (F := Ideal) ei) e) n q := by
  unfold val_main_v43
  refine (GS.scatterAdd_apply scatter_S50000x128_S850000x1_S850000x128_1_0_0_1 rfl rfl rfl rfl _ _ _ n q).trans ?_
  rw [aggAt_def]
  exact congrArg₂ (fun a b : EReal => a + b) (v41_at n q) (Finset.sum_congr rfl fun e _ => v40_at x ei w1 e q)

/-- The bias broadcast along the rows reads, at (n, q), the bias at q. -/
theorem idx4445_ix (n : Fin 50000) (q : Fin 128) : idx_main_v44 (idx_main_v45 (ix2 n q)) = ix1 q :=
  funext fun a => Fin.ext (by match a with | ⟨0, _⟩ => rfl)

/-- The broadcast bias at (n, q): the bias at q. -/
theorem v45_at (b1 : Row 128) (n : Fin 50000) (q : Fin 128) : val_main_v45 (F := Ideal) b1 (ix2 n q) = b1 (ix1 q) := by
  rw [val_main_v45_apply, val_main_v44_apply, idx4445_ix]

/-- The zero table the positive part compares with, at (n, q). -/
theorem relu0_at (n : Fin 50000) (q : Fin 128) : (val_main_call1_v0 (F := Ideal) : Tab 50000 128) (ix2 n q) = 0 := by
  rw [val_main_call1_v0_apply, val_main_call1_cst_apply]
  exact Ideal.ofBits_zero_f32

/-- THE FIRST LAYER'S OUTPUT, as a table: propagate the product, add the bias, take the positive part. -/
theorem v47_eq (x : Tab 50000 128) (ei : (⟨2, ![2, 800000]⟩ : Shape).Idx → BitVec 32) (w1 : Tab 128 128) (b1 : Row 128) :
    val_main_v47 (F := Ideal) x ei w1 b1
      = Cert.Bridge.hidden x w1 b1 (val_main_v36 (F := Ideal) ei) (val_main_v42 (F := Ideal) ei)
          (fun e => at1 (val_main_v29 (F := Ideal) ei) e) := by
  funext i
  obtain ⟨n, q, rfl⟩ : ∃ n q, i = ix2 n q := ⟨i 0, i 1, eq_ix2 i⟩
  rw [hidden_def, val_main_v47_apply, val_main_v46_apply, v43_at, v45_at, relu0_at, Ideal.addf_def, Ideal.maximumf_def]

/-! ## The two layers joined -/

theorem outAt_def {E : Nat} (x : Tab 50000 128) (w1 : Tab 128 128) (b1 : Row 128) (w2 : Tab 128 64) (b2 : Row 64)
    (g1 d1 : ICol E) (s1 : Fin E → EReal) (g2 d2 : ICol E) (s2 : Fin E → EReal) (n : Fin 50000) (j : Fin 64) :
    outAt x w1 b1 w2 b2 g1 d1 s1 g2 d2 s2 n j
      = aggAt (tab2 (mmAt (Cert.Bridge.hidden x w1 b1 g1 d1 s1) w2)) g2 d2 s2 n j + b2 (ix1 j) := rfl

/-- THE REFERENCE'S RESULT at node `n`, column `j`: the network's output over the unpadded edge columns. -/
theorem ref_value (x : Tab 50000 128) (ei : (⟨2, ![2, 800000]⟩ : Shape).Idx → BitVec 32) (w1 : Tab 128 128) (b1 : Row 128)
    (w2 : Tab 128 64) (b2 : Row 64) (n : Fin 50000) (j : Fin 64) :
    at2 (val_main_v87 (F := Ideal) x ei w1 b1 w2 b2) n j
      = outAt x w1 b1 w2 b2
          (val_main_v36 (F := Ideal) ei) (val_main_v42 (F := Ideal) ei) (fun e => at1 (val_main_v29 (F := Ideal) ei) e)
          (val_main_v77 (F := Ideal) ei) (val_main_v83 (F := Ideal) ei) (fun e => at1 (val_main_v70 (F := Ideal) ei) e) n j := by
  rw [outAt_def, ← v47_eq x ei w1 b1]
  exact Cert.ReferenceIdeal.RefV2.layer2 x ei w1 b1 w2 b2 n j

end Cert.ReferenceIdeal.RefV

end
-- ==== Proof.Bridge.lean ====
/-
  THE TWO RESULTS ARE ONE FUNCTION OF THE ARGUMENTS.

  The kernel program's result is the network's output over its PADDED edge columns; the reference's is the network's output
  over its own, unpadded ones. On the first 850000 edges the padded gather column, scatter column and weight are the
  reference's (both are the same normalisation, broadcast and weight formula of the same source and target numbers, which
  the two programs compute by the same prefix), and on the last 1968 edges the padded weight is zero. So the padding lemma
  applies, in both layers, and the two outputs agree at every node and column.
-/
import proofs.«169315_j54537494724630_1_alg».proof.Proof.Gen.KernelIdeal.Frame
import proofs.«169315_j54537494724630_1_alg».proof.Proof.Spec
import proofs.«169315_j54537494724630_1_alg».proof.Proof.SpecIdx
import proofs.«169315_j54537494724630_1_alg».proof.Proof.KernelPad
import proofs.«169315_j54537494724630_1_alg».proof.Proof.KernelPadCol
import proofs.«169315_j54537494724630_1_alg».proof.Proof.KernelPadW
import proofs.«169315_j54537494724630_1_alg».proof.Proof.PrefixEq
import proofs.«169315_j54537494724630_1_alg».proof.Proof.RefPad
import proofs.«169315_j54537494724630_1_alg».proof.Proof.RefValue

set_option maxRecDepth 16384

noncomputable section

namespace Cert.Bridge.Join

open Idealize.ShloMosaic Idealize.ShloMosaic.TcCoe Idealize.ShloMosaic.ValueIdx Idealize.SL.Sem
open Cert.KernelIdeal Cert.KernelIdeal.Gen Cert.Bridge

variable (m : (ℓ : Loc nD τ sig) → Buf (Elt Ideal) ℓ) (ρ : Dev nD → PrngReg)

/-- The edge index array, as launched. -/
abbrev eiA (c : Dev nD) : (⟨2, ![2, 800000]⟩ : Shape).Idx → BitVec 32 := m ((c.tc : Thread nD τ).loc main_arg1)

/-- Each layer's padded gather column, on the first 850000 edges, is the reference's gather column. -/
theorem gcol1_eq (c : Dev nD) (e : Fin 850000) :
    iat2 (W5 m ρ c (Proc.devRef .tc main_v42)) ⟨e.val, by omega⟩
      = iat2 (Cert.ReferenceIdeal.PRead.val_main_v36 (F := Ideal) (eiA m c)) e :=
  (Cert.KernelIdeal.PadCol.gcol1 m ρ c ⟨e.val, by omega⟩).trans
    ((congrArg normRow (Cert.KernelIdeal.Pad.src_left m ρ c e)).trans
      ((congrArg (fun v : IRow 850000 => normRow (iat1 v e)) (Cert.Bridge.PrefixEq.src_eq m ρ c)).trans
        (Cert.ReferenceIdeal.RefPad.gcol1 (eiA m c) e).symm))
theorem gcol2_eq (c : Dev nD) (e : Fin 850000) :
    iat2 (W10 m ρ c (Proc.devRef .tc main_v56)) ⟨e.val, by omega⟩
      = iat2 (Cert.ReferenceIdeal.PRead.val_main_v77 (F := Ideal) (eiA m c)) e :=
  (Cert.KernelIdeal.PadCol.gcol2 m ρ c ⟨e.val, by omega⟩).trans
    ((congrArg normRow (Cert.KernelIdeal.Pad.src_left m ρ c e)).trans
      ((congrArg (fun v : IRow 850000 => normRow (iat1 v e)) (Cert.Bridge.PrefixEq.src_eq m ρ c)).trans
        (Cert.ReferenceIdeal.RefPad.gcol2 (eiA m c) e).symm))
/-- Each layer's padded scatter column, on the first 850000 edges, is the reference's scatter column. -/
theorem dcol1_eq (c : Dev nD) (e : Fin 850000) :
    iat2 (W7 m ρ c (Proc.devRef .tc main_v46)) ⟨e.val, by omega⟩
      = iat2 (Cert.ReferenceIdeal.PRead.val_main_v42 (F := Ideal) (eiA m c)) e :=
  (Cert.KernelIdeal.PadCol.dcol1 m ρ c ⟨e.val, by omega⟩).trans
    ((Cert.KernelIdeal.Pad.dst_left m ρ c e).trans
      ((congrArg (fun v : IRow 850000 => iat1 v e) (Cert.Bridge.PrefixEq.dst_eq m ρ c)).trans
        (Cert.ReferenceIdeal.RefPad.dcol1 (eiA m c) e).symm))
theorem dcol2_eq (c : Dev nD) (e : Fin 850000) :
    iat2 (W12 m ρ c (Proc.devRef .tc main_v60)) ⟨e.val, by omega⟩
      = iat2 (Cert.ReferenceIdeal.PRead.val_main_v83 (F := Ideal) (eiA m c)) e :=
  (Cert.KernelIdeal.PadCol.dcol2 m ρ c ⟨e.val, by omega⟩).trans
    ((Cert.KernelIdeal.Pad.dst_left m ρ c e).trans
      ((congrArg (fun v : IRow 850000 => iat1 v e) (Cert.Bridge.PrefixEq.dst_eq m ρ c)).trans
        (Cert.ReferenceIdeal.RefPad.dcol2 (eiA m c) e).symm))
/-- The padded weight, on the first 850000 edges, is the reference's weight (its first computation, and its second). -/
theorem wt1_eq (c : Dev nD) (e : Fin 850000) :
    at2 (W3 m ρ c (Proc.devRef .tc main_v35)) ⟨e.val, by omega⟩ 0
      = at1 (Cert.ReferenceIdeal.PRead.val_main_v29 (F := Ideal) (eiA m c)) e :=
  (Cert.KernelIdeal.PadW.nrm_left m ρ c e).trans
    (congrArg (fun v : Row 850000 => at1 v e) (Cert.Bridge.PrefixEq.nrm_eq m ρ c))
theorem wt2_eq (c : Dev nD) (e : Fin 850000) :
    at2 (W3 m ρ c (Proc.devRef .tc main_v35)) ⟨e.val, by omega⟩ 0
      = at1 (Cert.ReferenceIdeal.PRead.val_main_v70 (F := Ideal) (eiA m c)) e :=
  (wt1_eq m ρ c e).trans
    (congrArg (fun v : Row 850000 => at1 v e) (Cert.Bridge.PrefixEq.nrm_again (F := Ideal) (eiA m c)).symm)

/-- THE JOIN: the network's output over the kernel program's padded edge columns is the reference's result, at every
    node and column. -/
theorem out_eq (c : Dev nD) (n : Fin 50000) (j : Fin 64) :
    outAt (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5))
        (W5 m ρ c (Proc.devRef .tc main_v42)) (W7 m ρ c (Proc.devRef .tc main_v46))
        (fun e => at2 (W3 m ρ c (Proc.devRef .tc main_v35)) e 0)
        (W10 m ρ c (Proc.devRef .tc main_v56)) (W12 m ρ c (Proc.devRef .tc main_v60))
        (fun e => at2 (W3 m ρ c (Proc.devRef .tc main_v35)) e 0) n j
      = at2 (Cert.ReferenceIdeal.PRead.val_main_v87 (F := Ideal) (m ((c.tc : Thread nD τ).loc main_arg0)) (eiA m c)
          (m ((c.tc : Thread nD τ).loc main_arg2)) (m ((c.tc : Thread nD τ).loc main_arg3))
          (m ((c.tc : Thread nD τ).loc main_arg4)) (m ((c.tc : Thread nD τ).loc main_arg5))) n j :=
  (outAt_pad (E := 850000) (P := 1968) (E' := 851968) (by norm_num) _ _ _ _ _ _ _ _ _ _ _
      (Cert.ReferenceIdeal.PRead.val_main_v36 (F := Ideal) (eiA m c)) (Cert.ReferenceIdeal.PRead.val_main_v42 (F := Ideal) (eiA m c))
      (fun e => at1 (Cert.ReferenceIdeal.PRead.val_main_v29 (F := Ideal) (eiA m c)) e)
      (Cert.ReferenceIdeal.PRead.val_main_v77 (F := Ideal) (eiA m c)) (Cert.ReferenceIdeal.PRead.val_main_v83 (F := Ideal) (eiA m c))
      (fun e => at1 (Cert.ReferenceIdeal.PRead.val_main_v70 (F := Ideal) (eiA m c)) e)
      (gcol1_eq m ρ c) (dcol1_eq m ρ c) (wt1_eq m ρ c) (fun e' h => Cert.KernelIdeal.PadW.nrm_right m ρ c e' h)
      (gcol2_eq m ρ c) (dcol2_eq m ρ c) (wt2_eq m ρ c) (fun e' h => Cert.KernelIdeal.PadW.nrm_right m ρ c e' h) n j).trans
    (Cert.ReferenceIdeal.RefV.ref_value _ _ _ _ _ _ n j).symm

end Cert.Bridge.Join

end
-- ==== Proof.lean ====
/-
  A TWO-LAYER GRAPH CONVOLUTION AS TILED KERNELS, AGAINST ITS PLAIN REFERENCE.

  Both programs add one loop per node to the 800000 given edges, weight every edge by the inverse square roots of its two
  ends' in-degrees, and apply twice: multiply the node table by the layer's weights, send along every edge the source node's
  row times the edge's weight, add at every node the rows it receives, add the bias (the positive part between the layers).

  The kernel program differs from the reference in three ways, none of which changes an extended real. Its two matrix
  products, its two row scalings and its two bias additions run as kernel regions, block by block, where the reference has
  one host operation each: read as whole arrays the regions compute the same tables (the matrix product's inputs pass through
  a narrower float format on the way, which is the identity on exact values). It pads the three edge vectors from 850000
  to 851968 entries with zeros, so that the edge-indexed regions run over whole blocks: a padded edge has weight zero, so it
  sends `row · 0 = 0` (true of every extended real) to node 0, and every sum over the padded edges is the sum over the
  edges. And it computes the edge weights once, where the reference computes them once per layer: the same function.

  So the argument arrays end unchanged in all three programs (the generated frames, and the reference's run), nothing was
  rewritten in idealising the kernel, and the two idealised programs end with the same result: the kernel program's result
  buffer, read back through its ten steps, is the network's output over the padded edge columns; the reference's result is
  the network's output over the unpadded ones; the padding lemma joins them. No finiteness of the inputs is used.
-/
import proofs.«169315_j54537494724630_1_alg».proof.Defs
import proofs.«169315_j54537494724630_1_alg».proof.Proof.Gen.Kernel
import proofs.«169315_j54537494724630_1_alg».proof.Proof.Gen.Kernel.Skeleton
import proofs.«169315_j54537494724630_1_alg».proof.Proof.Gen.Kernel.Launch
import proofs.«169315_j54537494724630_1_alg».proof.Proof.Gen.Kernel.Points
import proofs.«169315_j54537494724630_1_alg».proof.Proof.Gen.Kernel.Frame
import proofs.«169315_j54537494724630_1_alg».proof.Proof.Gen.KernelIdeal
import proofs.«169315_j54537494724630_1_alg».proof.Proof.Gen.KernelIdeal.Skeleton
import proofs.«169315_j54537494724630_1_alg».proof.Proof.Gen.KernelIdeal.Launch
import proofs.«169315_j54537494724630_1_alg».proof.Proof.Gen.KernelIdeal.Points
import proofs.«169315_j54537494724630_1_alg».proof.Proof.Gen.KernelIdeal.Frame
import proofs.«169315_j54537494724630_1_alg».proof.Proof.Gen.ReferenceIdeal
import proofs.«169315_j54537494724630_1_alg».proof.Proof.Gen.Pre_finite_inputs
import proofs.«169315_j54537494724630_1_alg».proof.Proof.RefRun
import proofs.«169315_j54537494724630_1_alg».proof.Proof.RefRead
import proofs.«169315_j54537494724630_1_alg».proof.Proof.KernelRun
import proofs.«169315_j54537494724630_1_alg».proof.Proof.KernelFold
import proofs.«169315_j54537494724630_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- Two tables that agree at every row and column are equal. -/
theorem tab_ext {N W : Nat} (X Y : Cert.Bridge.Tab N W) (h : ∀ (n : Fin N) (j : Fin W), Cert.Bridge.at2 X n j = Cert.Bridge.at2 Y n j) :
    X = Y := by
  funext i
  obtain ⟨n, j, rfl⟩ : ∃ (n : Fin N) (j : Fin W), i = ix2 n j := ⟨i 0, i 1, eq_ix2 i⟩
  exact h n j

/-- The kernel program's result buffer at the last boundary and the reference's result term of the same arguments agree at
    every node and column: the read-back (`kernel_value`) then the join (`out_eq`). -/
theorem result_at (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (n : Fin 50000) (j : Fin 64) :
    Cert.Bridge.at2 (Cert.KernelIdeal.Gen.W13 m ρ c (Proc.devRef .tc Cert.KernelIdeal.main_v63)) n j
      = Cert.Bridge.at2 (Cert.ReferenceIdeal.PRead.val_main_v87 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))) n j :=
  (Cert.KernelIdeal.Fold.kernel_value m ρ c n j).trans (Cert.Bridge.Join.out_eq m ρ c n j)

/-- So the two are one table. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W13 m ρ c (Proc.devRef .tc Cert.KernelIdeal.main_v63)
      = Cert.ReferenceIdeal.PRead.val_main_v87 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) :=
  tab_ext _ _ (result_at m ρ c)

/-- The word-level kernel program terminates with its arguments unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- So does the idealised kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.PValue.run (F := Ideal) m ρ)

/-- From memories agreeing on the arguments the two idealised programs end with the same result: the kernel program's
    result buffer at its last boundary, which is the reference's result term of the arguments (`result_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W13 m ρ c (Proc.devRef .tc Cert.KernelIdeal.main_v63),
    Cert.KernelIdeal.RunV.run_result m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v87_eq, (hagree c).1, (hagree c).2.1, (hagree c).2.2.1, (hagree c).2.2.2.1,
    (hagree c).2.2.2.2.1, (hagree c).2.2.2.2.2]
  exact (result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
